-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x192x1024 : Shape := ⟨3, ![8, 192, 1024]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x192x1024 : S_.BroadcastsInDim S8x192x1024 (![] : Fin 0 → Fin S8x192x1024.rank)
  reducesTo_S8x192x1024_S_d0_1_2 : S8x192x1024.ReducesTo [0, 1, 2] S_

variable [Facts]

def fn {F : FTy → Type} [FloatOps F] (main_arg0 : FVec F S8x4096x3 .f32) (main_arg1 : FVec F S8x4096x3 .f32) (main_arg2 : FVec F S8x192x1024 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x192x1024 .f32 := Host.absf main_arg2
  let main_cst_2 : FVec F S_ .f32 := constant S_ .f32 0x7F800000#32
  let main_v10 : FVec F S8x192x1024 .f32 := broadcastInDim S8x192x1024 ![] bcast_S_S8x192x1024 main_cst_2
  let main_v11 : IVec S8x192x1024 1 := cmpf .olt main_v9 main_v10
  let main_c_3 : IVec S_ 1 := constantI S_ 1 1#1
  let main_v12 : IVec S_ 1 := (fun x v => Host.reduce IntOp.andi x v reducesTo_S8x192x1024_S_d0_1_2 h_S_) main_v11 main_c_3
  let main_v13 : IVec S_ 1 := andi main_v8 main_v12
  main_v13
-- ==== Kernel.lean ====
abbrev S8x4096x3 : Shape := ⟨3, ![8, 4096, 3]⟩
abbrev S8x192x1024 : Shape := ⟨3, ![8, 192, 1024]⟩
abbrev S_ : Shape := ⟨0, ![]⟩
abbrev S8x4096 : Shape := ⟨2, ![8, 4096]⟩
abbrev S8x512x3 : Shape := ⟨3, ![8, 512, 3]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S8 : Shape := ⟨1, ![8]⟩

abbrev nBuf : Space → Nat
  | .hbm => 35
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x192x1024, .f32⟩
  | .hbm, ⟨3, _⟩ => ⟨S8x192x1024, .f32⟩
  | .hbm, ⟨4, _⟩ => ⟨S_, .f32⟩
  | .hbm, ⟨5, _⟩ => ⟨S_, .f32⟩
  | .hbm, ⟨6, _⟩ => ⟨S8x192x1024, .f32⟩
  | .hbm, ⟨7, _⟩ => ⟨S8x192x1024, .f32⟩
  | .hbm, ⟨8, _⟩ => ⟨S8x192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512x3, .f32⟩
  | .local _ .vmem, ⟨8, _⟩ => ⟨S8x512x3, .f32⟩
  | .local _ .vmem, ⟨9, _⟩ => ⟨S8x512x3, .f32⟩
  | .local _ .vmem, ⟨10, _⟩ => ⟨S8x512x3, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_cst_8 : Ref sig .tc := ⟨.hbm, 30, rfl⟩
abbrev main_v18 : Ref sig .tc := ⟨.hbm, 31, rfl⟩
abbrev main_cst_9 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_15 : BitVec 32 := 0#32
  let v28 : BitVec 1 := Scalar.cmpi .ne v27 c0_i32_15
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_15 : BitVec 32 := 0#32
  let v28 : BitVec 1 := Scalar.cmpi .ne v27 c0_i32_15
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S8x192x1024 : S_.BroadcastsInDim S8x192x1024 (![] : Fin 0 → Fin S8x192x1024.rank)
  reducesTo_S8x192x1024_S_d0_1_2 : S8x192x1024.ReducesTo [0, 1, 2] S_
  h_S_ : 0 < S_.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  reduces_S8x512x3_S8x512 : S8x512x3.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reducesTo_S8x4096_S8_d1 : S8x4096.ReducesTo [1] S8
  bcast_S_S8 : S_.BroadcastsInDim S8 (![] : Fin 0 → Fin S8.rank)
  reducesTo_S8_S_d0 : S8.ReducesTo [0] S_
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x192x1024 : Shape := ⟨3, ![8, 192, 1024]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x192x1024, .f32⟩
  | .hbm, ⟨3, _⟩ => ⟨S8x192x1024, .f32⟩
  | .hbm, ⟨4, _⟩ => ⟨S_, .f32⟩
  | .hbm, ⟨5, _⟩ => ⟨S_, .f32⟩
  | .hbm, ⟨6, _⟩ => ⟨S8x192x1024, .f32⟩
  | .hbm, ⟨7, _⟩ => ⟨S8x192x1024, .f32⟩
  | .hbm, ⟨8, _⟩ => ⟨S8x192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096x3, .f32⟩
  | .hbm, ⟨14, _⟩ => ⟨S_, .f32⟩
  | .hbm, ⟨15, _⟩ => ⟨S8x4096, .f32⟩
  | .hbm, ⟨16, _⟩ => ⟨S8x4096x3, .f32⟩
  | .hbm, ⟨17, _⟩ => ⟨S_, .f32⟩
  | .hbm, ⟨18, _⟩ => ⟨S8x4096, .f32⟩
  | .hbm, ⟨19, _⟩ => ⟨S8x4096x4096, .f32⟩
  | .hbm, ⟨20, _⟩ => ⟨S8x4096x1, .f32⟩
  | .hbm, ⟨21, _⟩ => ⟨S8x1x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_cst_11 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_12 : Ref sig .tc := ⟨.hbm, 47, rfl⟩
abbrev main_v31 : Ref sig .tc := ⟨.hbm, 48, rfl⟩
abbrev main_cst_13 : Ref sig .tc := ⟨.hbm, 49, rfl⟩
abbrev main_v32 : Ref sig .tc := ⟨.hbm, 50, rfl⟩
abbrev main_cst_14 : Ref sig .tc := ⟨.hbm, 51, rfl⟩
abbrev main_v33 : Ref sig .tc := ⟨.hbm, 52, rfl⟩
abbrev main_cst_15 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S_S8x192x1024 : S_.BroadcastsInDim S8x192x1024 (![] : Fin 0 → Fin S8x192x1024.rank)
  reducesTo_S8x192x1024_S_d0_1_2 : S8x192x1024.ReducesTo [0, 1, 2] S_
  h_S_ : 0 < S_.numel
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Region0BodyK.lean ====
/-
  Region 0 of the kernel program: the first nearest-neighbour pass, rows from the first cloud, columns
  from the second, on a grid of 8 row tiles by 8 column tiles (point `t` is row tile `t / 8`, column
  tile `t % 8`).

  The body keeps a running minimum in a scratch block. At column tile 0 it resets the scratch to `+∞`;
  at every point it replaces the scratch by the minimum of the scratch and this tile's row-wise minimum of
  the clamped squared distances; at column tile 7 it copies the scratch into the output block, which the
  pipeline then writes back. So after point `t` the scratch holds

      sc0 t = pay2 (row block at t) (column block at t) (if t % 8 = 0 then +∞ else sc0 (t - 1)),

  `pay2` being the body's arithmetic as one term. The invariant between points says exactly that, and the
  output block after a point of column tile 7 is the scratch. Everything is stated at a parameter `V`, the
  contents of the core's buffers when the region is entered, and for any float instance.
-/
import proofs.«118349_j11184094838808_1_alg».proof.Proof.Gen.Kernel.Launch
import proofs.«118349_j11184094838808_1_alg».proof.Proof.Gen.Kernel.Skeleton
import proofs.«118349_j11184094838808_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles and conditions -/

/-- The whole scratch / output block, and the whole input block, as the body's accesses name them. -/
abbrev rS : Rect S8x512 := Rect.unit (s := S8x512) ![0, 0] S8x512.size inb_S8x512_S8x512_0_0
abbrev rB : Rect S8x512x3 := Rect.unit (s := S8x512x3) ![0, 0, 0] S8x512x3.size inb_S8x512x3_S8x512x3_0_0_0

theorem hzS : (![0, 0] : Fin 2 → Nat) = fun _ => 0 := by funext a; fin_cases a <;> rfl
theorem hzB : (![0, 0, 0] : Fin 3 → Nat) = fun _ => 0 := by funext a; fin_cases a <;> rfl

/-- A rectangle of the block's own extents at offset zero holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is column tile 0": the body's first branch, as it computes it from the grid coordinates. -/
abbrev condReset0 (i : grid0.Coords) : Prop := (Scalar.cmpi .ne (Scalar.extui (Scalar.cmpi .eq (BitVec.ofNat 32 (i 1).val) 0#32)) 0#32) = 1#1
/-- "This is column tile 7": the body's second branch. -/
abbrev condFlush0 (i : grid0.Coords) : Prop := k0_cond2 i = 1#1

theorem hcondReset0 : ∀ t : Fin cfg0.N, condReset0 (grid0.coords t) ↔ t.val % 8 = 0 :=
  (by decide +kernel : ∀ t : Fin grid0.N, condReset0 (grid0.coords t) ↔ t.val % 8 = 0)
theorem hcondFlush0 : ∀ t : Fin cfg0.N, condFlush0 (grid0.coords t) ↔ t.val % 8 = 7 :=
  (by decide +kernel : ∀ t : Fin grid0.N, condFlush0 (grid0.coords t) ↔ t.val % 8 = 7)

/-- The input windows are never idle; the output window is idle exactly off column tile 7, where it is
    not written back either. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ t.val % 8 = 7 → cfg0.idle 2 (grid0.coords t) = true := by decide +kernel
theorem liveAt0_2 : ∀ t : Fin cfg0.N, t.val % 8 = 7 → cfg0.idle 2 (grid0.coords t) = false := by decide +kernel
theorem noFlush0_2 : ∀ t : Fin cfg0.N, ¬ t.val % 8 = 7 → (cfg0.win 2).flush t = false := by decide +kernel

/-! ## The body, case by case -/

set_option maxHeartbeats 1000000 in
/-- Column tile 0 (not 7): the scratch, whatever it held, ends at the tile's minimum taken from `+∞`. -/
theorem body0_first (c : Dev nD) (E : Set ℕ) (i : grid0.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : condReset0 i) (hc1 : ¬condFlush0 i)
    (x0 x1 : Vec F S8x512x3 .f32) (xi : Vec F S8x512 .f32) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 k0_pay1)) -∗ K ⟨⟩))
      ⊢ wp frame (wpE (defs₀ (F := F)) Variants.none c none) E (cc0__dir_min_kernel i arg2 harg2 arg3 harg3 arg4 harg4 arg5 harg5) K := by
  simp only [cc0__dir_min_kernel_eq_skeleton]; unfold cc0__dir_min_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, mem_unit_zero hzS inb_S8x512_S8x512_0_0 y⟩),
    View.canon_cons_unit_zero (S := S8x512) hzS]
  simp only [View.readAt_eq_ld, harg2.read_unread, harg3.read_unread, View.ld_unit_zero (S := S8x512x3) hzB,
    View.readCov_unit_zero (S := S8x512) _ hzS]

set_option maxHeartbeats 1000000 in
/-- A column tile strictly between 0 and 7: the scratch ends at the minimum of what it held and the tile's. -/
theorem body0_mid (c : Dev nD) (E : Set ℕ) (i : grid0.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset0 i) (hc1 : ¬condFlush0 i)
    (x0 x1 : Vec F S8x512x3 .f32) (xi xs : Vec F S8x512 .f32) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__dir_min_kernel i arg2 harg2 arg3 harg3 arg4 harg4 arg5 harg5) K := by
  simp only [cc0__dir_min_kernel_eq_skeleton]; unfold cc0__dir_min_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  rw [View.read_writes_eq_canon _ _ _ (fun y => ⟨_, List.mem_cons_self, mem_unit_zero hzS inb_S8x512_S8x512_0_0 y⟩),
    View.canon_unit_zero (S := S8x512) hzS]
  simp only [View.readAt_eq_ld, harg2.read_unread, harg3.read_unread, harg5.read_unread, View.ld_unit_zero (S := S8x512x3) hzB,
    View.ld_unit_zero (S := S8x512) hzS]

set_option maxHeartbeats 1000000 in
/-- Column tile 7 (not 0): the scratch ends as in the middle tiles, and the output block, whatever it held,
    ends at the scratch. -/
theorem body0_last (c : Dev nD) (E : Set ℕ) (i : grid0.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset0 i) (hc1 : condFlush0 i)
    (x0 x1 : Vec F S8x512x3 .f32) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__dir_min_kernel i arg2 harg2 arg3 harg3 arg4 harg4 arg5 harg5) K := by
  simp only [cc0__dir_min_kernel_eq_skeleton]; unfold cc0__dir_min_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_words
    rw [View.read_writes_eq_canon _ _ _ (fun y => ⟨_, List.mem_cons_self, mem_unit_zero hzS inb_S8x512_S8x512_0_0 y⟩),
      View.canon_unit_zero (S := S8x512) hzS]
    simp only [View.readAt_eq_ld, harg2.read_unread, harg3.read_unread, harg5.read_unread, View.ld_unit_zero (S := S8x512x3) hzB,
      View.ld_unit_zero (S := S8x512) hzS, View.readCov_unit_zero (S := S8x512) _ hzS]
  iexists _; isplitr
  swap; · iexact H5
  ipureintro
  sl_unfold_words
  rw [View.read_writes_eq_canon _ _ _ (fun y => ⟨_, List.mem_cons_self, mem_unit_zero hzS inb_S8x512_S8x512_0_0 y⟩),
    View.canon_unit_zero (S := S8x512) hzS]
  simp only [View.readAt_eq_ld, harg2.read_unread, harg3.read_unread, harg5.read_unread, View.ld_unit_zero (S := S8x512x3) hzB,
    View.ld_unit_zero (S := S8x512) hzS]

end Cert.Kernel.Hand

end
-- ==== Proof.Region0K.lean ====
/-
  Region 0, continued: what the scratch holds after each point (`sc0`), the invariant between points
  (the scratch at `sc0` of the point before; before the first point, anything), the pipeline's proof data
  and the body obligation at every point, by cases on the column tile.
-/
import proofs.«118349_j11184094838808_1_alg».proof.Proof.Region0BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where
    it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The scratch after each point -/

/-- The row block and the column block at point `t`, at their literal type. -/
abbrev rowB0 (c : Dev nD) (t : Fin cfg0.N) : Vec F S8x512x3 .f32 := iblk0 V c 0 t
abbrev colB0 (c : Dev nD) (t : Fin cfg0.N) : Vec F S8x512x3 .f32 := iblk0 V c 1 t

/-- What the scratch holds after the body at position `n`: this tile's minimum folded into `+∞` at column
    tile 0, into what the point before left otherwise. -/
def sc0 (c : Dev nD) : (n : ℕ) → n < cfg0.N → Vec F S8x512 .f32
  | 0, hn => k0_pay2 (rowB0 V c ⟨0, hn⟩) (colB0 V c ⟨0, hn⟩) k0_pay1
  | n + 1, hn =>
    if (n + 1) % 8 = 0 then k0_pay2 (rowB0 V c ⟨n + 1, hn⟩) (colB0 V c ⟨n + 1, hn⟩) k0_pay1
    else k0_pay2 (rowB0 V c ⟨n + 1, hn⟩) (colB0 V c ⟨n + 1, hn⟩) (sc0 c n (Nat.lt_of_succ_lt hn))

/-- At column tile 0 the scratch restarts from `+∞`. -/
theorem sc0_first (c : Dev nD) (t : Fin cfg0.N) (h : t.val % 8 = 0) :
    sc0 V c t.val t.isLt = k0_pay2 (rowB0 V c t) (colB0 V c t) k0_pay1 := by
  obtain ⟨n, hn⟩ := t
  cases n with
  | zero => rfl
  | succ n => exact if_pos h

/-- At any other column tile it continues from the point before. -/
theorem sc0_next (c : Dev nD) (t : Fin cfg0.N) (h : ¬ t.val % 8 = 0) :
    sc0 V c t.val t.isLt = k0_pay2 (rowB0 V c t) (colB0 V c t) (sc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand, a whole scoped buffer of the kernel's own. -/
abbrev scM0 : Memref sig .tc .vmem S8x512 .f32 := Memref.whole cc0_scratch0

/-- The core's other scoped buffers (the other region's staging buffers and scratch), each at anything and left
    unopened: this region does not touch them. -/
abbrev others0 (c : Dev nD) : sProp 𝕄 :=
  Pipeline.scopedRestBut (Ix := Unit) (Name := ℕ) (U := UR sig nD τ) (Lvl := ℕ) (Val := Elt F) spec0 c [cc0_scratch0]

/-- What the launch hands the region, with the scratch split off as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list (win := spec0) (c := c) [cc0_scratch0] (by decide) (by decide)]
  simp only [scM0, owns_whole]; try rfl

/-- The invariant before position `n`: before the first point what the launch hands over; afterwards the
    scratch at what the point before left, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0 fullShare (sc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (sc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (sc0 V c (n - 1) (by omega)) ∗ others0 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the scratch's contents (consulted only at column tile 7, where the
    body copies the scratch into it); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' memrefs hold their blocks; the column tile says which case the point is
    in. At column tile 0 the invariant hands the scratch over at anything (before the very first point) or at
    what the point before left, and the body overwrites it; elsewhere it hands it over at what the point before
    left and the body folds this tile in. Off column tile 7 the output's buffer goes back as it came; at column
    tile 7 it goes back at the scratch's new contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 64 := lt_of_lt_of_eq t.isLt (show cfg0.N = 64 from N_0)
  by_cases h0 : t.val % 8 = 0
  · have h7 : ¬ t.val % 8 = 7 := by omega
    rw [Dat.leavesExact_idle (dat0 V c) 2 t (idleAt0_2 t h7) (noFlush0_2 t h7)]
    rw [sc0_first V c t h0]
    by_cases hz : t.val = 0
    · rw [Phi0_castSucc V c t, PhiS0_zero V c _ _ hz, PhiA0_eq]
      iintro ⟨⟨⟨HS, Hoth⟩, Hg⟩, Ho, ⟨%d0, H0⟩, ⟨%d1, H1⟩, ⟨%d2, H2⟩⟩
      iapply (body0_first c Set.univ (grid0.coords t) _ _ _ _ _ _ _ _ ((hcondReset0 t).mpr h0) (fun h => h7 ((hcondFlush0 t).mp h)) (rowB0 V c t) (colB0 V c t) _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi0_castSucc V c t, PhiS0_pos V c _ _ hz]
      iintro ⟨⟨⟨HS, Hoth⟩, Hg⟩, Ho, ⟨%d0, H0⟩, ⟨%d1, H1⟩, ⟨%d2, H2⟩⟩
      iapply (body0_first c Set.univ (grid0.coords t) _ _ _ _ _ _ _ _ ((hcondReset0 t).mpr h0) (fun h => h7 ((hcondFlush0 t).mp h)) (rowB0 V c t) (colB0 V c t) _ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    rw [sc0_next V c t h0]
    rw [Phi0_castSucc V c t, PhiS0_pos V c _ _ hz]
    by_cases h7 : t.val % 8 = 7
    · rw [show (dat0 V c).leavesExact 2 t = owns (c : Thread nD τ) (st0_2 t) fullShare ((dat0 V c).after 2 t) from by
        unfold Dat.leavesExact; rw [liveAt0_2 t h7], after0_2, sc0_next V c t h0]
      iintro ⟨⟨⟨HS, Hoth⟩, Hg⟩, Ho, ⟨%d0, H0⟩, ⟨%d1, H1⟩, ⟨%d2, H2⟩⟩
      iapply (body0_last c Set.univ (grid0.coords t) _ _ _ _ _ _ _ _ (fun h => h0 ((hcondReset0 t).mp h)) ((hcondFlush0 t).mpr h7) (rowB0 V c t) (colB0 V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat0 V c) 2 t (idleAt0_2 t h7) (noFlush0_2 t h7)]
      iintro ⟨⟨⟨HS, Hoth⟩, Hg⟩, Ho, ⟨%d0, H0⟩, ⟨%d1, H1⟩, ⟨%d2, H2⟩⟩
      iapply (body0_mid c Set.univ (grid0.coords t) _ _ _ _ _ _ _ _ (fun h => h0 ((hcondReset0 t).mp h)) (fun h => h7 ((hcondFlush0 t).mp h)) (rowB0 V c t) (colB0 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Cert.Kernel.Hand

end
-- ==== Proof.Region1BodyK.lean ====
/-
  Region 1 of the kernel program: the second nearest-neighbour pass, rows from the second cloud, columns
  from the first, on a grid of 8 row tiles by 8 column tiles (point `t` is row tile `t / 8`, column
  tile `t % 8`).

  The body keeps a running minimum in a scratch block. At column tile 0 it resets the scratch to `+∞`;
  at every point it replaces the scratch by the minimum of the scratch and this tile's row-wise minimum of
  the clamped squared distances; at column tile 7 it copies the scratch into the output block, which the
  pipeline then writes back. So after point `t` the scratch holds

      sc1 t = pay2 (row block at t) (column block at t) (if t % 8 = 0 then +∞ else sc1 (t - 1)),

  `pay2` being the body's arithmetic as one term. The invariant between points says exactly that, and the
  output block after a point of column tile 7 is the scratch. Everything is stated at a parameter `V`, the
  contents of the core's buffers when the region is entered, and for any float instance.
-/
import proofs.«118349_j11184094838808_1_alg».proof.Proof.Gen.Kernel.Launch
import proofs.«118349_j11184094838808_1_alg».proof.Proof.Gen.Kernel.Skeleton
import proofs.«118349_j11184094838808_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles and conditions -/

/-- The whole scratch / output block, and the whole input block, as the body's accesses name them. -/
abbrev rS1 : Rect S8x512 := Rect.unit (s := S8x512) ![0, 0] S8x512.size inb_S8x512_S8x512_0_0
abbrev rB1 : Rect S8x512x3 := Rect.unit (s := S8x512x3) ![0, 0, 0] S8x512x3.size inb_S8x512x3_S8x512x3_0_0_0

theorem hzS1 : (![0, 0] : Fin 2 → Nat) = fun _ => 0 := by funext a; fin_cases a <;> rfl
theorem hzB1 : (![0, 0, 0] : Fin 3 → Nat) = fun _ => 0 := by funext a; fin_cases a <;> rfl

/-- A rectangle of the block's own extents at offset zero holds every index. -/
theorem mem_unit_zero1 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is column tile 0": the body's first branch, as it computes it from the grid coordinates. -/
abbrev condReset1 (i : grid1.Coords) : Prop := (Scalar.cmpi .ne (Scalar.extui (Scalar.cmpi .eq (BitVec.ofNat 32 (i 1).val) 0#32)) 0#32) = 1#1
/-- "This is column tile 7": the body's second branch. -/
abbrev condFlush1 (i : grid1.Coords) : Prop := k1_cond2 i = 1#1

theorem hcondReset1 : ∀ t : Fin cfg1.N, condReset1 (grid1.coords t) ↔ t.val % 8 = 0 :=
  (by decide +kernel : ∀ t : Fin grid1.N, condReset1 (grid1.coords t) ↔ t.val % 8 = 0)
theorem hcondFlush1 : ∀ t : Fin cfg1.N, condFlush1 (grid1.coords t) ↔ t.val % 8 = 7 :=
  (by decide +kernel : ∀ t : Fin grid1.N, condFlush1 (grid1.coords t) ↔ t.val % 8 = 7)

/-- The input windows are never idle; the output window is idle exactly off column tile 7, where it is
    not written back either. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val % 8 = 7 → cfg1.idle 2 (grid1.coords t) = true := by decide +kernel
theorem liveAt1_2 : ∀ t : Fin cfg1.N, t.val % 8 = 7 → cfg1.idle 2 (grid1.coords t) = false := by decide +kernel
theorem noFlush1_2 : ∀ t : Fin cfg1.N, ¬ t.val % 8 = 7 → (cfg1.win 2).flush t = false := by decide +kernel

/-! ## The body, case by case -/

set_option maxHeartbeats 1000000 in
/-- Column tile 0 (not 7): the scratch, whatever it held, ends at the tile's minimum taken from `+∞`. -/
theorem body1_first (c : Dev nD) (E : Set ℕ) (i : grid1.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : condReset1 i) (hc1 : ¬condFlush1 i)
    (x0 x1 : Vec F S8x512x3 .f32) (xi : Vec F S8x512 .f32) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 k1_pay1)) -∗ K ⟨⟩))
      ⊢ wp frame (wpE (defs₀ (F := F)) Variants.none c none) E (cc1__dir_min_kernel i arg2 harg2 arg3 harg3 arg4 harg4 arg5 harg5) K := by
  simp only [cc1__dir_min_kernel_eq_skeleton]; unfold cc1__dir_min_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, mem_unit_zero1 hzS1 inb_S8x512_S8x512_0_0 y⟩),
    View.canon_cons_unit_zero (S := S8x512) hzS1]
  simp only [View.readAt_eq_ld, harg2.read_unread, harg3.read_unread, View.ld_unit_zero (S := S8x512x3) hzB1,
    View.readCov_unit_zero (S := S8x512) _ hzS1]

set_option maxHeartbeats 1000000 in
/-- A column tile strictly between 0 and 7: the scratch ends at the minimum of what it held and the tile's. -/
theorem body1_mid (c : Dev nD) (E : Set ℕ) (i : grid1.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset1 i) (hc1 : ¬condFlush1 i)
    (x0 x1 : Vec F S8x512x3 .f32) (xi xs : Vec F S8x512 .f32) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__dir_min_kernel i arg2 harg2 arg3 harg3 arg4 harg4 arg5 harg5) K := by
  simp only [cc1__dir_min_kernel_eq_skeleton]; unfold cc1__dir_min_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  rw [View.read_writes_eq_canon _ _ _ (fun y => ⟨_, List.mem_cons_self, mem_unit_zero1 hzS1 inb_S8x512_S8x512_0_0 y⟩),
    View.canon_unit_zero (S := S8x512) hzS1]
  simp only [View.readAt_eq_ld, harg2.read_unread, harg3.read_unread, harg5.read_unread, View.ld_unit_zero (S := S8x512x3) hzB1,
    View.ld_unit_zero (S := S8x512) hzS1]

set_option maxHeartbeats 1000000 in
/-- Column tile 7 (not 0): the scratch ends as in the middle tiles, and the output block, whatever it held,
    ends at the scratch. -/
theorem body1_last (c : Dev nD) (E : Set ℕ) (i : grid1.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset1 i) (hc1 : condFlush1 i)
    (x0 x1 : Vec F S8x512x3 .f32) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__dir_min_kernel i arg2 harg2 arg3 harg3 arg4 harg4 arg5 harg5) K := by
  simp only [cc1__dir_min_kernel_eq_skeleton]; unfold cc1__dir_min_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_words
    rw [View.read_writes_eq_canon _ _ _ (fun y => ⟨_, List.mem_cons_self, mem_unit_zero1 hzS1 inb_S8x512_S8x512_0_0 y⟩),
      View.canon_unit_zero (S := S8x512) hzS1]
    simp only [View.readAt_eq_ld, harg2.read_unread, harg3.read_unread, harg5.read_unread, View.ld_unit_zero (S := S8x512x3) hzB1,
      View.ld_unit_zero (S := S8x512) hzS1, View.readCov_unit_zero (S := S8x512) _ hzS1]
  iexists _; isplitr
  swap; · iexact H5
  ipureintro
  sl_unfold_words
  rw [View.read_writes_eq_canon _ _ _ (fun y => ⟨_, List.mem_cons_self, mem_unit_zero1 hzS1 inb_S8x512_S8x512_0_0 y⟩),
    View.canon_unit_zero (S := S8x512) hzS1]
  simp only [View.readAt_eq_ld, harg2.read_unread, harg3.read_unread, harg5.read_unread, View.ld_unit_zero (S := S8x512x3) hzB1,
    View.ld_unit_zero (S := S8x512) hzS1]

end Cert.Kernel.Hand

end
-- ==== Proof.Region1K.lean ====
/-
  Region 1, continued: what the scratch holds after each point (`sc1`), the invariant between points
  (the scratch at `sc1` of the point before; before the first point, anything), the pipeline's proof data
  and the body obligation at every point, by cases on the column tile.
-/
import proofs.«118349_j11184094838808_1_alg».proof.Proof.Region1BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where
    it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch after each point -/

/-- The row block and the column block at point `t`, at their literal type. -/
abbrev rowB1 (c : Dev nD) (t : Fin cfg1.N) : Vec F S8x512x3 .f32 := iblk1 V c 0 t
abbrev colB1 (c : Dev nD) (t : Fin cfg1.N) : Vec F S8x512x3 .f32 := iblk1 V c 1 t

/-- What the scratch holds after the body at position `n`: this tile's minimum folded into `+∞` at column
    tile 0, into what the point before left otherwise. -/
def sc1 (c : Dev nD) : (n : ℕ) → n < cfg1.N → Vec F S8x512 .f32
  | 0, hn => k1_pay2 (rowB1 V c ⟨0, hn⟩) (colB1 V c ⟨0, hn⟩) k1_pay1
  | n + 1, hn =>
    if (n + 1) % 8 = 0 then k1_pay2 (rowB1 V c ⟨n + 1, hn⟩) (colB1 V c ⟨n + 1, hn⟩) k1_pay1
    else k1_pay2 (rowB1 V c ⟨n + 1, hn⟩) (colB1 V c ⟨n + 1, hn⟩) (sc1 c n (Nat.lt_of_succ_lt hn))

/-- At column tile 0 the scratch restarts from `+∞`. -/
theorem sc1_first (c : Dev nD) (t : Fin cfg1.N) (h : t.val % 8 = 0) :
    sc1 V c t.val t.isLt = k1_pay2 (rowB1 V c t) (colB1 V c t) k1_pay1 := by
  obtain ⟨n, hn⟩ := t
  cases n with
  | zero => rfl
  | succ n => exact if_pos h

/-- At any other column tile it continues from the point before. -/
theorem sc1_next (c : Dev nD) (t : Fin cfg1.N) (h : ¬ t.val % 8 = 0) :
    sc1 V c t.val t.isLt = k1_pay2 (rowB1 V c t) (colB1 V c t) (sc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand, a whole scoped buffer of the kernel's own. -/
abbrev scM1 : Memref sig .tc .vmem S8x512 .f32 := Memref.whole cc1_scratch0

/-- The core's other scoped buffers (the other region's staging buffers and scratch), each at anything and left
    unopened: this region does not touch them. -/
abbrev others1 (c : Dev nD) : sProp 𝕄 :=
  Pipeline.scopedRestBut (Ix := Unit) (Name := ℕ) (U := UR sig nD τ) (Lvl := ℕ) (Val := Elt F) spec1 c [cc1_scratch0]

/-- What the launch hands the region, with the scratch split off as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list (win := spec1) (c := c) [cc1_scratch0] (by decide) (by decide)]
  simp only [scM1, owns_whole]; try rfl

/-- The invariant before position `n`: before the first point what the launch hands over; afterwards the
    scratch at what the point before left, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1 fullShare (sc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (sc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (sc1 V c (n - 1) (by omega)) ∗ others1 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the scratch's contents (consulted only at column tile 7, where the
    body copies the scratch into it); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = sc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the column tile says which case the point is
    in. At column tile 0 the invariant hands the scratch over at anything (before the very first point) or at
    what the point before left, and the body overwrites it; elsewhere it hands it over at what the point before
    left and the body folds this tile in. Off column tile 7 the output's buffer goes back as it came; at column
    tile 7 it goes back at the scratch's new contents. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have h7 : ¬ t.val % 8 = 7 := by omega
    rw [Dat.leavesExact_idle (dat1 V c) 2 t (idleAt1_2 t h7) (noFlush1_2 t h7)]
    rw [sc1_first V c t h0]
    by_cases hz : t.val = 0
    · rw [Phi1_castSucc V c t, PhiS1_zero V c _ _ hz, PhiA1_eq]
      iintro ⟨⟨⟨HS, Hoth⟩, Hg⟩, Ho, ⟨%d0, H0⟩, ⟨%d1, H1⟩, ⟨%d2, H2⟩⟩
      iapply (body1_first c Set.univ (grid1.coords t) _ _ _ _ _ _ _ _ ((hcondReset1 t).mpr h0) (fun h => h7 ((hcondFlush1 t).mp h)) (rowB1 V c t) (colB1 V c t) _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi1_castSucc V c t, PhiS1_pos V c _ _ hz]
      iintro ⟨⟨⟨HS, Hoth⟩, Hg⟩, Ho, ⟨%d0, H0⟩, ⟨%d1, H1⟩, ⟨%d2, H2⟩⟩
      iapply (body1_first c Set.univ (grid1.coords t) _ _ _ _ _ _ _ _ ((hcondReset1 t).mpr h0) (fun h => h7 ((hcondFlush1 t).mp h)) (rowB1 V c t) (colB1 V c t) _ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    rw [sc1_next V c t h0]
    rw [Phi1_castSucc V c t, PhiS1_pos V c _ _ hz]
    by_cases h7 : t.val % 8 = 7
    · rw [show (dat1 V c).leavesExact 2 t = owns (c : Thread nD τ) (st1_2 t) fullShare ((dat1 V c).after 2 t) from by
        unfold Dat.leavesExact; rw [liveAt1_2 t h7], after1_2, sc1_next V c t h0]
      iintro ⟨⟨⟨HS, Hoth⟩, Hg⟩, Ho, ⟨%d0, H0⟩, ⟨%d1, H1⟩, ⟨%d2, H2⟩⟩
      iapply (body1_last c Set.univ (grid1.coords t) _ _ _ _ _ _ _ _ (fun h => h0 ((hcondReset1 t).mp h)) ((hcondFlush1 t).mpr h7) (rowB1 V c t) (colB1 V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat1 V c) 2 t (idleAt1_2 t h7) (noFlush1_2 t h7)]
      iintro ⟨⟨⟨HS, Hoth⟩, Hg⟩, Ho, ⟨%d0, H0⟩, ⟨%d1, H1⟩, ⟨%d2, H2⟩⟩
      iapply (body1_mid c Set.univ (grid1.coords t) _ _ _ _ _ _ _ _ (fun h => h0 ((hcondReset1 t).mp h)) (fun h => h7 ((hcondFlush1 t).mp h)) (rowB1 V c t) (colB1 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hoth⟩, Hg⟩
  isplitl [HS Hoth]
  · isplitl [HS]; · iexists _; iexact HS
    iexact Hoth
  iexact Hg

end Cert.Kernel.Hand

end
-- ==== Proof.RunK.lean ====
/-
  The run of the kernel program: @main is host operations, region 0, region 1, host operations. The contents
  of the core's unscoped buffers at each boundary are a fold from the launch memory: the host operations'
  results after the first stretch; then region 0's output array at what its write-backs leave; then region 1's;
  then the host operations' results again. Each region is entered from what the segment before it left, each
  pipeline's proof data is taken at its region's entry contents, and one launch of the whole list says: every
  execution ends, and at the end every unscoped buffer holds the last boundary's contents. The frame and the
  values are both read off that.
-/
import proofs.«118349_j11184094838808_1_alg».proof.Proof.Region0K
import proofs.«118349_j11184094838808_1_alg».proof.Proof.Region1K
import proofs.«118349_j11184094838808_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev M0 : Dev nD → Valuation τ sig (Elt F) := fun c b => (s₀ m ρ).mem ((c : Dev nD), b)
/-- After the first host stretch (region 0's entry). -/
abbrev M1 : Dev nD → Valuation τ sig (Elt F) := fun c => StableHlo.after hostOps0 (M0 m ρ c)
/-- The same read at the TensorCore's references. -/
abbrev E1 : (c : Dev nD) → (b : Ref sig .tc) → Buf (Elt F) ((c : Thread nD τ).loc b) := fun c b => M1 m ρ c b
/-- At region 0's exit (region 1's entry): its arrays at what the pipeline leaves, every other buffer as entered. -/
def M2 (c : Dev nD) : Valuation τ sig (Elt F) :=
  Pipeline.withArrays spec0 c (M1 m ρ c) fun w => (dat0 (E1 m ρ) c).arrAt w cfg0.N
theorem M2_arr (c : Dev nD) (w : Fin cfg0.W) :
    M2 m ρ c (Proc.devRef .tc (Pipeline.arrRef spec0 w)) = (dat0 (E1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
abbrev E2 : (c : Dev nD) → (b : Ref sig .tc) → Buf (Elt F) ((c : Thread nD τ).loc b) := fun c b => M2 m ρ c b
theorem hF0 (c : Dev nD) (w : Fin cfg0.W) : (dat0 (E1 m ρ) c).arrAt w cfg0.N = E2 m ρ c (Pipeline.arrRef spec0 w) :=
  (M2_arr m ρ c w).symm
theorem hrest0 (c : Dev nD) : ∀ b, b ∉ Finset.univ.image (Pipeline.arrRef spec0) → E2 m ρ c b = E1 m ρ c b :=
  fun b hb => M2_of_ne m ρ c b fun w e => hb (Finset.mem_image.mpr ⟨w, Finset.mem_univ _, e⟩)
/-- At region 1's exit: its arrays at what the pipeline leaves, every other buffer as entered. -/
def M3 (c : Dev nD) : Valuation τ sig (Elt F) :=
  Pipeline.withArrays spec1 c (M2 m ρ c) fun w => (dat1 (E2 m ρ) c).arrAt w cfg1.N
theorem M3_arr (c : Dev nD) (w : Fin cfg1.W) :
    M3 m ρ c (Proc.devRef .tc (Pipeline.arrRef spec1 w)) = (dat1 (E2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev E3 : (c : Dev nD) → (b : Ref sig .tc) → Buf (Elt F) ((c : Thread nD τ).loc b) := fun c b => M3 m ρ c b
theorem hF1 (c : Dev nD) (w : Fin cfg1.W) : (dat1 (E2 m ρ) c).arrAt w cfg1.N = E3 m ρ c (Pipeline.arrRef spec1 w) :=
  (M3_arr m ρ c w).symm
theorem hrest1 (c : Dev nD) : ∀ b, b ∉ Finset.univ.image (Pipeline.arrRef spec1) → E3 m ρ c b = E2 m ρ c b :=
  fun b hb => M3_of_ne m ρ c b fun w e => hb (Finset.mem_image.mpr ⟨w, Finset.mem_univ _, e⟩)
/-- After the last host stretch: the end. -/
abbrev M4 : Dev nD → Valuation τ sig (Elt F) := fun c => StableHlo.after hostOps2 (M3 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core
    owing nothing. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tn (c : Dev nD) : sProp 𝕄 := iprop(StableHlo.held (c : Thread nD τ) (Pipeline.ucRefs τ sig) (M4 m ρ c) ∗ ∃ r, prngReg c r)

/-! ## The regions as segments -/

-- a library lemma stated over a pinned configuration unifies with the printed one only when unification may unfold
-- plain definitions in a metavariable's type
set_option backward.isDefEq.respectTransparency.types false in
/-- Region 0 as a segment: entered from every unscoped buffer at `M1`, left at `M2`. Its arrays are split
    out of the unscoped buffers and put back at what the write-backs leave; the generator register goes into the
    invariant and comes back; the scratch's contents are forgotten at the exit; nothing is owed; the kernel has
    no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (M1 m ρ c) ∗ R c)
  post c := iprop(StableHlo.held (c : Thread nD τ) (Pipeline.ucRefs τ sig) (M2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 as a segment: entered from every unscoped buffer at `M2`, left at `M3`. Its arrays are split
    out of the unscoped buffers and put back at what the write-backs leave; the generator register goes into the
    invariant and comes back; the scratch's contents are forgotten at the exit; nothing is owed; the kernel has
    no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev msegs : List (Pipeline.Seg (pcfgs (F := F)) adm (pdats m ρ) () defs₀ 𝒱₀ L lv) :=
  [ .host (hseg hostOps0 hostOps0_sub hostOps0_fresh (M0 m ρ)),
    .region (reg0 m ρ),
    .region (reg1 m ρ),
    .host (hseg hostOps2 hostOps2_sub hostOps2_fresh (M3 m ρ)) ]
/-- @main IS the run of the segments. -/
theorem main_run (c : Dev nD) : main (F := F) c = Pipeline.Seg.run (msegs m ρ) := (main_chain c).trans (by chain_rfl)

set_option backward.isDefEq.respectTransparency.types false in
/-- THE RUN. From any memory with zero counters, every weakly fair execution of @main terminates, nothing
    faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = M4 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c)) (Tₙ := Tn m ρ)
    (hch := ⟨fun _ => .rfl, fun _ => .rfl, fun _ => .rfl, fun _ => .rfl, fun c => by
      show iprop(StableHlo.held (c : Thread nD τ) (Pipeline.ucRefs τ sig) (M4 m ρ c) ∗ R c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M4 m ρ c b)
    (hfin := fun c s' => by
      iintro ⟨⟨Hh, -⟩, HSI⟩
      unfold StableHlo.held
      imodintro
      iapply (pointsTo_read_all (Pipeline.ucRefs τ sig) (fun b => (((c : Thread nD τ)).1, b)) (M4 m ρ c) s')
      isplitl [Hh] <;> iassumption)
    (hQ := fun s h => h)

/-! ## The arguments end as launched

No host operation writes an argument; each region reads the two clouds through input windows, whose arrays the
pipeline never writes, and bypasses the third argument. So the fold at an argument's buffer walks back to the
launch memory. -/

theorem M4_main_arg0 (c : Dev nD) : M4 m ρ c (Proc.devRef .tc main_arg0) = m ((c : Thread nD τ).loc main_arg0) :=
  calc M4 m ρ c (Proc.devRef .tc main_arg0)
    _ = M3 m ρ c (Proc.devRef .tc main_arg0) := StableHlo.after_of_writes_sub hostOps2 _ hostOps2_writes (by decide)
    _ = M2 m ρ c (Proc.devRef .tc main_arg0) := (M3_arr m ρ c 1).trans (((dat1 (E2 m ρ) c).arrAt_in 1 rfl _).trans (A_eq1 (E2 m ρ) c 1))
    _ = M1 m ρ c (Proc.devRef .tc main_arg0) := (M2_arr m ρ c 0).trans (((dat0 (E1 m ρ) c).arrAt_in 0 rfl _).trans (A_eq0 (E1 m ρ) c 0))
    _ = M0 m ρ c (Proc.devRef .tc main_arg0) := StableHlo.after_of_writes_sub hostOps0 _ hostOps0_writes (by decide)
    _ = m ((c : Thread nD τ).loc main_arg0) := rfl

theorem M4_main_arg1 (c : Dev nD) : M4 m ρ c (Proc.devRef .tc main_arg1) = m ((c : Thread nD τ).loc main_arg1) :=
  calc M4 m ρ c (Proc.devRef .tc main_arg1)
    _ = M3 m ρ c (Proc.devRef .tc main_arg1) := StableHlo.after_of_writes_sub hostOps2 _ hostOps2_writes (by decide)
    _ = M2 m ρ c (Proc.devRef .tc main_arg1) := (M3_arr m ρ c 0).trans (((dat1 (E2 m ρ) c).arrAt_in 0 rfl _).trans (A_eq1 (E2 m ρ) c 0))
    _ = M1 m ρ c (Proc.devRef .tc main_arg1) := (M2_arr m ρ c 1).trans (((dat0 (E1 m ρ) c).arrAt_in 1 rfl _).trans (A_eq0 (E1 m ρ) c 1))
    _ = M0 m ρ c (Proc.devRef .tc main_arg1) := StableHlo.after_of_writes_sub hostOps0 _ hostOps0_writes (by decide)
    _ = m ((c : Thread nD τ).loc main_arg1) := rfl

theorem M4_main_arg2 (c : Dev nD) : M4 m ρ c (Proc.devRef .tc main_arg2) = m ((c : Thread nD τ).loc main_arg2) :=
  calc M4 m ρ c (Proc.devRef .tc main_arg2)
    _ = M3 m ρ c (Proc.devRef .tc main_arg2) := StableHlo.after_of_writes_sub hostOps2 _ hostOps2_writes (by decide)
    _ = M2 m ρ c (Proc.devRef .tc main_arg2) := M3_of_ne m ρ c main_arg2 (by decide)
    _ = M1 m ρ c (Proc.devRef .tc main_arg2) := M2_of_ne m ρ c main_arg2 (by decide)
    _ = M0 m ρ c (Proc.devRef .tc main_arg2) := StableHlo.after_of_writes_sub hostOps0 _ hostOps0_writes (by decide)
    _ = m ((c : Thread nD τ).loc main_arg2) := rfl

/-- THE FRAME, at any float instance: every execution ends, nothing faulting, the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (M4_main_arg0 m ρ c),
      (h c _ (mem_uc main_arg1 (by decide))).trans (M4_main_arg1 m ρ c),
      (h c _ (mem_uc main_arg2 (by decide))).trans (M4_main_arg2 m ρ c)⟩) (run_main m ρ)

end Cert.Kernel.Hand

end
-- ==== Proof.Region0Body.lean ====
/-
  Region 0 of the kernel program: the first nearest-neighbour pass, rows from the first cloud, columns
  from the second, on a grid of 8 row tiles by 8 column tiles (point `t` is row tile `t / 8`, column
  tile `t % 8`).

  The body keeps a running minimum in a scratch block. At column tile 0 it resets the scratch to `+∞`;
  at every point it replaces the scratch by the minimum of the scratch and this tile's row-wise minimum of
  the clamped squared distances; at column tile 7 it copies the scratch into the output block, which the
  pipeline then writes back. So after point `t` the scratch holds

      sc0 t = pay2 (row block at t) (column block at t) (if t % 8 = 0 then +∞ else sc0 (t - 1)),

  `pay2` being the body's arithmetic as one term. The invariant between points says exactly that, and the
  output block after a point of column tile 7 is the scratch. Everything is stated at a parameter `V`, the
  contents of the core's buffers when the region is entered, and for any float instance.
-/
import proofs.«118349_j11184094838808_1_alg».proof.Proof.Gen.KernelIdeal.Launch
import proofs.«118349_j11184094838808_1_alg».proof.Proof.Gen.KernelIdeal.Skeleton
import proofs.«118349_j11184094838808_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles and conditions -/

/-- The whole scratch / output block, and the whole input block, as the body's accesses name them. -/
abbrev rS : Rect S8x512 := Rect.unit (s := S8x512) ![0, 0] S8x512.size inb_S8x512_S8x512_0_0
abbrev rB : Rect S8x512x3 := Rect.unit (s := S8x512x3) ![0, 0, 0] S8x512x3.size inb_S8x512x3_S8x512x3_0_0_0

theorem hzS : (![0, 0] : Fin 2 → Nat) = fun _ => 0 := by funext a; fin_cases a <;> rfl
theorem hzB : (![0, 0, 0] : Fin 3 → Nat) = fun _ => 0 := by funext a; fin_cases a <;> rfl

/-- A rectangle of the block's own extents at offset zero holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is column tile 0": the body's first branch, as it computes it from the grid coordinates. -/
abbrev condReset0 (i : grid0.Coords) : Prop := (Scalar.cmpi .ne (Scalar.extui (Scalar.cmpi .eq (BitVec.ofNat 32 (i 1).val) 0#32)) 0#32) = 1#1
/-- "This is column tile 7": the body's second branch. -/
abbrev condFlush0 (i : grid0.Coords) : Prop := k0_cond2 i = 1#1

theorem hcondReset0 : ∀ t : Fin cfg0.N, condReset0 (grid0.coords t) ↔ t.val % 8 = 0 :=
  (by decide +kernel : ∀ t : Fin grid0.N, condReset0 (grid0.coords t) ↔ t.val % 8 = 0)
theorem hcondFlush0 : ∀ t : Fin cfg0.N, condFlush0 (grid0.coords t) ↔ t.val % 8 = 7 :=
  (by decide +kernel : ∀ t : Fin grid0.N, condFlush0 (grid0.coords t) ↔ t.val % 8 = 7)

/-- The input windows are never idle; the output window is idle exactly off column tile 7, where it is
    not written back either. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ t.val % 8 = 7 → cfg0.idle 2 (grid0.coords t) = true := by decide +kernel
theorem liveAt0_2 : ∀ t : Fin cfg0.N, t.val % 8 = 7 → cfg0.idle 2 (grid0.coords t) = false := by decide +kernel
theorem noFlush0_2 : ∀ t : Fin cfg0.N, ¬ t.val % 8 = 7 → (cfg0.win 2).flush t = false := by decide +kernel

/-! ## The body, case by case -/

set_option maxHeartbeats 1000000 in
/-- Column tile 0 (not 7): the scratch, whatever it held, ends at the tile's minimum taken from `+∞`. -/
theorem body0_first (c : Dev nD) (E : Set ℕ) (i : grid0.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : condReset0 i) (hc1 : ¬condFlush0 i)
    (x0 x1 : Vec F S8x512x3 .f32) (xi : Vec F S8x512 .f32) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 k0_pay1)) -∗ K ⟨⟩))
      ⊢ wp frame (wpE (defs₀ (F := F)) Variants.none c none) E (cc0__dir_min_kernel i arg2 harg2 arg3 harg3 arg4 harg4 arg5 harg5) K := by
  simp only [cc0__dir_min_kernel_eq_skeleton]; unfold cc0__dir_min_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, mem_unit_zero hzS inb_S8x512_S8x512_0_0 y⟩),
    View.canon_cons_unit_zero (S := S8x512) hzS]
  simp only [View.readAt_eq_ld, harg2.read_unread, harg3.read_unread, View.ld_unit_zero (S := S8x512x3) hzB,
    View.readCov_unit_zero (S := S8x512) _ hzS]

set_option maxHeartbeats 1000000 in
/-- A column tile strictly between 0 and 7: the scratch ends at the minimum of what it held and the tile's. -/
theorem body0_mid (c : Dev nD) (E : Set ℕ) (i : grid0.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset0 i) (hc1 : ¬condFlush0 i)
    (x0 x1 : Vec F S8x512x3 .f32) (xi xs : Vec F S8x512 .f32) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__dir_min_kernel i arg2 harg2 arg3 harg3 arg4 harg4 arg5 harg5) K := by
  simp only [cc0__dir_min_kernel_eq_skeleton]; unfold cc0__dir_min_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  rw [View.read_writes_eq_canon _ _ _ (fun y => ⟨_, List.mem_cons_self, mem_unit_zero hzS inb_S8x512_S8x512_0_0 y⟩),
    View.canon_unit_zero (S := S8x512) hzS]
  simp only [View.readAt_eq_ld, harg2.read_unread, harg3.read_unread, harg5.read_unread, View.ld_unit_zero (S := S8x512x3) hzB,
    View.ld_unit_zero (S := S8x512) hzS]

set_option maxHeartbeats 1000000 in
/-- Column tile 7 (not 0): the scratch ends as in the middle tiles, and the output block, whatever it held,
    ends at the scratch. -/
theorem body0_last (c : Dev nD) (E : Set ℕ) (i : grid0.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset0 i) (hc1 : condFlush0 i)
    (x0 x1 : Vec F S8x512x3 .f32) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__dir_min_kernel i arg2 harg2 arg3 harg3 arg4 harg4 arg5 harg5) K := by
  simp only [cc0__dir_min_kernel_eq_skeleton]; unfold cc0__dir_min_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_words
    rw [View.read_writes_eq_canon _ _ _ (fun y => ⟨_, List.mem_cons_self, mem_unit_zero hzS inb_S8x512_S8x512_0_0 y⟩),
      View.canon_unit_zero (S := S8x512) hzS]
    simp only [View.readAt_eq_ld, harg2.read_unread, harg3.read_unread, harg5.read_unread, View.ld_unit_zero (S := S8x512x3) hzB,
      View.ld_unit_zero (S := S8x512) hzS, View.readCov_unit_zero (S := S8x512) _ hzS]
  iexists _; isplitr
  swap; · iexact H5
  ipureintro
  sl_unfold_words
  rw [View.read_writes_eq_canon _ _ _ (fun y => ⟨_, List.mem_cons_self, mem_unit_zero hzS inb_S8x512_S8x512_0_0 y⟩),
    View.canon_unit_zero (S := S8x512) hzS]
  simp only [View.readAt_eq_ld, harg2.read_unread, harg3.read_unread, harg5.read_unread, View.ld_unit_zero (S := S8x512x3) hzB,
    View.ld_unit_zero (S := S8x512) hzS]

end Cert.KernelIdeal.Hand

end
-- ==== Proof.Region0.lean ====
/-
  Region 0, continued: what the scratch holds after each point (`sc0`), the invariant between points
  (the scratch at `sc0` of the point before; before the first point, anything), the pipeline's proof data
  and the body obligation at every point, by cases on the column tile.
-/
import proofs.«118349_j11184094838808_1_alg».proof.Proof.Region0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where
    it is not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The scratch after each point -/

/-- The row block and the column block at point `t`, at their literal type. -/
abbrev rowB0 (c : Dev nD) (t : Fin cfg0.N) : Vec F S8x512x3 .f32 := iblk0 V c 0 t
abbrev colB0 (c : Dev nD) (t : Fin cfg0.N) : Vec F S8x512x3 .f32 := iblk0 V c 1 t

/-- What the scratch holds after the body at position `n`: this tile's minimum folded into `+∞` at column
    tile 0, into what the point before left otherwise. -/
def sc0 (c : Dev nD) : (n : ℕ) → n < cfg0.N → Vec F S8x512 .f32
  | 0, hn => k0_pay2 (rowB0 V c ⟨0, hn⟩) (colB0 V c ⟨0, hn⟩) k0_pay1
  | n + 1, hn =>
    if (n + 1) % 8 = 0 then k0_pay2 (rowB0 V c ⟨n + 1, hn⟩) (colB0 V c ⟨n + 1, hn⟩) k0_pay1
    else k0_pay2 (rowB0 V c ⟨n + 1, hn⟩) (colB0 V c ⟨n + 1, hn⟩) (sc0 c n (Nat.lt_of_succ_lt hn))

/-- At column tile 0 the scratch restarts from `+∞`. -/
theorem sc0_first (c : Dev nD) (t : Fin cfg0.N) (h : t.val % 8 = 0) :
    sc0 V c t.val t.isLt = k0_pay2 (rowB0 V c t) (colB0 V c t) k0_pay1 := by
  obtain ⟨n, hn⟩ := t
  cases n with
  | zero => rfl
  | succ n => exact if_pos h

/-- At any other column tile it continues from the point before. -/
theorem sc0_next (c : Dev nD) (t : Fin cfg0.N) (h : ¬ t.val % 8 = 0) :
    sc0 V c t.val t.isLt = k0_pay2 (rowB0 V c t) (colB0 V c t) (sc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand, a whole scoped buffer of the kernel's own. -/
abbrev scM0 : Memref sig .tc .vmem S8x512 .f32 := Memref.whole cc0_scratch0

/-- The core's other scoped buffers (the other region's staging buffers and scratch), each at anything and left
    unopened: this region does not touch them. -/
abbrev others0 (c : Dev nD) : sProp 𝕄 :=
  Pipeline.scopedRestBut (Ix := Unit) (Name := ℕ) (U := UR sig nD τ) (Lvl := ℕ) (Val := Elt F) spec0 c [cc0_scratch0]

/-- What the launch hands the region, with the scratch split off as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list (win := spec0) (c := c) [cc0_scratch0] (by decide) (by decide)]
  simp only [scM0, owns_whole]; try rfl

/-- The invariant before position `n`: before the first point what the launch hands over; afterwards the
    scratch at what the point before left, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0 fullShare (sc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (sc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (sc0 V c (n - 1) (by omega)) ∗ others0 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the scratch's contents (consulted only at column tile 7, where the
    body copies the scratch into it); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' memrefs hold their blocks; the column tile says which case the point is
    in. At column tile 0 the invariant hands the scratch over at anything (before the very first point) or at
    what the point before left, and the body overwrites it; elsewhere it hands it over at what the point before
    left and the body folds this tile in. Off column tile 7 the output's buffer goes back as it came; at column
    tile 7 it goes back at the scratch's new contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 64 := lt_of_lt_of_eq t.isLt (show cfg0.N = 64 from N_0)
  by_cases h0 : t.val % 8 = 0
  · have h7 : ¬ t.val % 8 = 7 := by omega
    rw [Dat.leavesExact_idle (dat0 V c) 2 t (idleAt0_2 t h7) (noFlush0_2 t h7)]
    rw [sc0_first V c t h0]
    by_cases hz : t.val = 0
    · rw [Phi0_castSucc V c t, PhiS0_zero V c _ _ hz, PhiA0_eq]
      iintro ⟨⟨⟨HS, Hoth⟩, Hg⟩, Ho, ⟨%d0, H0⟩, ⟨%d1, H1⟩, ⟨%d2, H2⟩⟩
      iapply (body0_first c Set.univ (grid0.coords t) _ _ _ _ _ _ _ _ ((hcondReset0 t).mpr h0) (fun h => h7 ((hcondFlush0 t).mp h)) (rowB0 V c t) (colB0 V c t) _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi0_castSucc V c t, PhiS0_pos V c _ _ hz]
      iintro ⟨⟨⟨HS, Hoth⟩, Hg⟩, Ho, ⟨%d0, H0⟩, ⟨%d1, H1⟩, ⟨%d2, H2⟩⟩
      iapply (body0_first c Set.univ (grid0.coords t) _ _ _ _ _ _ _ _ ((hcondReset0 t).mpr h0) (fun h => h7 ((hcondFlush0 t).mp h)) (rowB0 V c t) (colB0 V c t) _ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    rw [sc0_next V c t h0]
    rw [Phi0_castSucc V c t, PhiS0_pos V c _ _ hz]
    by_cases h7 : t.val % 8 = 7
    · rw [show (dat0 V c).leavesExact 2 t = owns (c : Thread nD τ) (st0_2 t) fullShare ((dat0 V c).after 2 t) from by
        unfold Dat.leavesExact; rw [liveAt0_2 t h7], after0_2, sc0_next V c t h0]
      iintro ⟨⟨⟨HS, Hoth⟩, Hg⟩, Ho, ⟨%d0, H0⟩, ⟨%d1, H1⟩, ⟨%d2, H2⟩⟩
      iapply (body0_last c Set.univ (grid0.coords t) _ _ _ _ _ _ _ _ (fun h => h0 ((hcondReset0 t).mp h)) ((hcondFlush0 t).mpr h7) (rowB0 V c t) (colB0 V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat0 V c) 2 t (idleAt0_2 t h7) (noFlush0_2 t h7)]
      iintro ⟨⟨⟨HS, Hoth⟩, Hg⟩, Ho, ⟨%d0, H0⟩, ⟨%d1, H1⟩, ⟨%d2, H2⟩⟩
      iapply (body0_mid c Set.univ (grid0.coords t) _ _ _ _ _ _ _ _ (fun h => h0 ((hcondReset0 t).mp h)) (fun h => h7 ((hcondFlush0 t).mp h)) (rowB0 V c t) (colB0 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Cert.KernelIdeal.Hand

end
-- ==== Proof.Region1Body.lean ====
/-
  Region 1 of the kernel program: the second nearest-neighbour pass, rows from the second cloud, columns
  from the first, on a grid of 8 row tiles by 8 column tiles (point `t` is row tile `t / 8`, column
  tile `t % 8`).

  The body keeps a running minimum in a scratch block. At column tile 0 it resets the scratch to `+∞`;
  at every point it replaces the scratch by the minimum of the scratch and this tile's row-wise minimum of
  the clamped squared distances; at column tile 7 it copies the scratch into the output block, which the
  pipeline then writes back. So after point `t` the scratch holds

      sc1 t = pay2 (row block at t) (column block at t) (if t % 8 = 0 then +∞ else sc1 (t - 1)),

  `pay2` being the body's arithmetic as one term. The invariant between points says exactly that, and the
  output block after a point of column tile 7 is the scratch. Everything is stated at a parameter `V`, the
  contents of the core's buffers when the region is entered, and for any float instance.
-/
import proofs.«118349_j11184094838808_1_alg».proof.Proof.Gen.KernelIdeal.Launch
import proofs.«118349_j11184094838808_1_alg».proof.Proof.Gen.KernelIdeal.Skeleton
import proofs.«118349_j11184094838808_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles and conditions -/

/-- The whole scratch / output block, and the whole input block, as the body's accesses name them. -/
abbrev rS1 : Rect S8x512 := Rect.unit (s := S8x512) ![0, 0] S8x512.size inb_S8x512_S8x512_0_0
abbrev rB1 : Rect S8x512x3 := Rect.unit (s := S8x512x3) ![0, 0, 0] S8x512x3.size inb_S8x512x3_S8x512x3_0_0_0

theorem hzS1 : (![0, 0] : Fin 2 → Nat) = fun _ => 0 := by funext a; fin_cases a <;> rfl
theorem hzB1 : (![0, 0, 0] : Fin 3 → Nat) = fun _ => 0 := by funext a; fin_cases a <;> rfl

/-- A rectangle of the block's own extents at offset zero holds every index. -/
theorem mem_unit_zero1 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- "This is column tile 0": the body's first branch, as it computes it from the grid coordinates. -/
abbrev condReset1 (i : grid1.Coords) : Prop := (Scalar.cmpi .ne (Scalar.extui (Scalar.cmpi .eq (BitVec.ofNat 32 (i 1).val) 0#32)) 0#32) = 1#1
/-- "This is column tile 7": the body's second branch. -/
abbrev condFlush1 (i : grid1.Coords) : Prop := k1_cond2 i = 1#1

theorem hcondReset1 : ∀ t : Fin cfg1.N, condReset1 (grid1.coords t) ↔ t.val % 8 = 0 :=
  (by decide +kernel : ∀ t : Fin grid1.N, condReset1 (grid1.coords t) ↔ t.val % 8 = 0)
theorem hcondFlush1 : ∀ t : Fin cfg1.N, condFlush1 (grid1.coords t) ↔ t.val % 8 = 7 :=
  (by decide +kernel : ∀ t : Fin grid1.N, condFlush1 (grid1.coords t) ↔ t.val % 8 = 7)

/-- The input windows are never idle; the output window is idle exactly off column tile 7, where it is
    not written back either. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val % 8 = 7 → cfg1.idle 2 (grid1.coords t) = true := by decide +kernel
theorem liveAt1_2 : ∀ t : Fin cfg1.N, t.val % 8 = 7 → cfg1.idle 2 (grid1.coords t) = false := by decide +kernel
theorem noFlush1_2 : ∀ t : Fin cfg1.N, ¬ t.val % 8 = 7 → (cfg1.win 2).flush t = false := by decide +kernel

/-! ## The body, case by case -/

set_option maxHeartbeats 1000000 in
/-- Column tile 0 (not 7): the scratch, whatever it held, ends at the tile's minimum taken from `+∞`. -/
theorem body1_first (c : Dev nD) (E : Set ℕ) (i : grid1.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : condReset1 i) (hc1 : ¬condFlush1 i)
    (x0 x1 : Vec F S8x512x3 .f32) (xi : Vec F S8x512 .f32) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 k1_pay1)) -∗ K ⟨⟩))
      ⊢ wp frame (wpE (defs₀ (F := F)) Variants.none c none) E (cc1__dir_min_kernel i arg2 harg2 arg3 harg3 arg4 harg4 arg5 harg5) K := by
  simp only [cc1__dir_min_kernel_eq_skeleton]; unfold cc1__dir_min_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, mem_unit_zero1 hzS1 inb_S8x512_S8x512_0_0 y⟩),
    View.canon_cons_unit_zero (S := S8x512) hzS1]
  simp only [View.readAt_eq_ld, harg2.read_unread, harg3.read_unread, View.ld_unit_zero (S := S8x512x3) hzB1,
    View.readCov_unit_zero (S := S8x512) _ hzS1]

set_option maxHeartbeats 1000000 in
/-- A column tile strictly between 0 and 7: the scratch ends at the minimum of what it held and the tile's. -/
theorem body1_mid (c : Dev nD) (E : Set ℕ) (i : grid1.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset1 i) (hc1 : ¬condFlush1 i)
    (x0 x1 : Vec F S8x512x3 .f32) (xi xs : Vec F S8x512 .f32) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__dir_min_kernel i arg2 harg2 arg3 harg3 arg4 harg4 arg5 harg5) K := by
  simp only [cc1__dir_min_kernel_eq_skeleton]; unfold cc1__dir_min_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  rw [View.read_writes_eq_canon _ _ _ (fun y => ⟨_, List.mem_cons_self, mem_unit_zero1 hzS1 inb_S8x512_S8x512_0_0 y⟩),
    View.canon_unit_zero (S := S8x512) hzS1]
  simp only [View.readAt_eq_ld, harg2.read_unread, harg3.read_unread, harg5.read_unread, View.ld_unit_zero (S := S8x512x3) hzB1,
    View.ld_unit_zero (S := S8x512) hzS1]

set_option maxHeartbeats 1000000 in
/-- Column tile 7 (not 0): the scratch ends as in the middle tiles, and the output block, whatever it held,
    ends at the scratch. -/
theorem body1_last (c : Dev nD) (E : Set ℕ) (i : grid1.Coords) (arg2 : Memref sig .tc .vmem S8x512x3 .f32) (harg2 : arg2.IsWhole) (arg3 : Memref sig .tc .vmem S8x512x3 .f32) (harg3 : arg3.IsWhole)
    (arg4 : Memref sig .tc .vmem S8x512 .f32) (harg4 : arg4.IsWhole) (arg5 : Memref sig .tc .vmem S8x512 .f32) (harg5 : arg5.IsWhole)
    (hc0 : ¬condReset1 i) (hc1 : condFlush1 i)
    (x0 x1 : Vec F S8x512x3 .f32) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__dir_min_kernel i arg2 harg2 arg3 harg3 arg4 harg4 arg5 harg5) K := by
  simp only [cc1__dir_min_kernel_eq_skeleton]; unfold cc1__dir_min_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_words
    rw [View.read_writes_eq_canon _ _ _ (fun y => ⟨_, List.mem_cons_self, mem_unit_zero1 hzS1 inb_S8x512_S8x512_0_0 y⟩),
      View.canon_unit_zero (S := S8x512) hzS1]
    simp only [View.readAt_eq_ld, harg2.read_unread, harg3.read_unread, harg5.read_unread, View.ld_unit_zero (S := S8x512x3) hzB1,
      View.ld_unit_zero (S := S8x512) hzS1, View.readCov_unit_zero (S := S8x512) _ hzS1]
  iexists _; isplitr
  swap; · iexact H5
  ipureintro
  sl_unfold_words
  rw [View.read_writes_eq_canon _ _ _ (fun y => ⟨_, List.mem_cons_self, mem_unit_zero1 hzS1 inb_S8x512_S8x512_0_0 y⟩),
    View.canon_unit_zero (S := S8x512) hzS1]
  simp only [View.readAt_eq_ld, harg2.read_unread, harg3.read_unread, harg5.read_unread, View.ld_unit_zero (S := S8x512x3) hzB1,
    View.ld_unit_zero (S := S8x512) hzS1]

end Cert.KernelIdeal.Hand

end
-- ==== Proof.Region1.lean ====
/-
  Region 1, continued: what the scratch holds after each point (`sc1`), the invariant between points
  (the scratch at `sc1` of the point before; before the first point, anything), the pipeline's proof data
  and the body obligation at every point, by cases on the column tile.
-/
import proofs.«118349_j11184094838808_1_alg».proof.Proof.Region1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where
    it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch after each point -/

/-- The row block and the column block at point `t`, at their literal type. -/
abbrev rowB1 (c : Dev nD) (t : Fin cfg1.N) : Vec F S8x512x3 .f32 := iblk1 V c 0 t
abbrev colB1 (c : Dev nD) (t : Fin cfg1.N) : Vec F S8x512x3 .f32 := iblk1 V c 1 t

/-- What the scratch holds after the body at position `n`: this tile's minimum folded into `+∞` at column
    tile 0, into what the point before left otherwise. -/
def sc1 (c : Dev nD) : (n : ℕ) → n < cfg1.N → Vec F S8x512 .f32
  | 0, hn => k1_pay2 (rowB1 V c ⟨0, hn⟩) (colB1 V c ⟨0, hn⟩) k1_pay1
  | n + 1, hn =>
    if (n + 1) % 8 = 0 then k1_pay2 (rowB1 V c ⟨n + 1, hn⟩) (colB1 V c ⟨n + 1, hn⟩) k1_pay1
    else k1_pay2 (rowB1 V c ⟨n + 1, hn⟩) (colB1 V c ⟨n + 1, hn⟩) (sc1 c n (Nat.lt_of_succ_lt hn))

/-- At column tile 0 the scratch restarts from `+∞`. -/
theorem sc1_first (c : Dev nD) (t : Fin cfg1.N) (h : t.val % 8 = 0) :
    sc1 V c t.val t.isLt = k1_pay2 (rowB1 V c t) (colB1 V c t) k1_pay1 := by
  obtain ⟨n, hn⟩ := t
  cases n with
  | zero => rfl
  | succ n => exact if_pos h

/-- At any other column tile it continues from the point before. -/
theorem sc1_next (c : Dev nD) (t : Fin cfg1.N) (h : ¬ t.val % 8 = 0) :
    sc1 V c t.val t.isLt = k1_pay2 (rowB1 V c t) (colB1 V c t) (sc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand, a whole scoped buffer of the kernel's own. -/
abbrev scM1 : Memref sig .tc .vmem S8x512 .f32 := Memref.whole cc1_scratch0

/-- The core's other scoped buffers (the other region's staging buffers and scratch), each at anything and left
    unopened: this region does not touch them. -/
abbrev others1 (c : Dev nD) : sProp 𝕄 :=
  Pipeline.scopedRestBut (Ix := Unit) (Name := ℕ) (U := UR sig nD τ) (Lvl := ℕ) (Val := Elt F) spec1 c [cc1_scratch0]

/-- What the launch hands the region, with the scratch split off as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list (win := spec1) (c := c) [cc1_scratch0] (by decide) (by decide)]
  simp only [scM1, owns_whole]; try rfl

/-- The invariant before position `n`: before the first point what the launch hands over; afterwards the
    scratch at what the point before left, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1 fullShare (sc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (sc1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (sc1 V c (n - 1) (by omega)) ∗ others1 c) ∗ (∃ r, prngReg c r)) := by
  cases n with
  | zero => exact absurd rfl hz
  | succ n => rfl

/-! ## The pipeline's proof data -/

/-- The proof data of pipeline 0 on core `c`: the arrays as the region finds them; after the body each input's
    buffer at its block and the output's at the scratch's contents (consulted only at column tile 7, where the
    body copies the scratch into it); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => sc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = sc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the column tile says which case the point is
    in. At column tile 0 the invariant hands the scratch over at anything (before the very first point) or at
    what the point before left, and the body overwrites it; elsewhere it hands it over at what the point before
    left and the body folds this tile in. Off column tile 7 the output's buffer goes back as it came; at column
    tile 7 it goes back at the scratch's new contents. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have h7 : ¬ t.val % 8 = 7 := by omega
    rw [Dat.leavesExact_idle (dat1 V c) 2 t (idleAt1_2 t h7) (noFlush1_2 t h7)]
    rw [sc1_first V c t h0]
    by_cases hz : t.val = 0
    · rw [Phi1_castSucc V c t, PhiS1_zero V c _ _ hz, PhiA1_eq]
      iintro ⟨⟨⟨HS, Hoth⟩, Hg⟩, Ho, ⟨%d0, H0⟩, ⟨%d1, H1⟩, ⟨%d2, H2⟩⟩
      iapply (body1_first c Set.univ (grid1.coords t) _ _ _ _ _ _ _ _ ((hcondReset1 t).mpr h0) (fun h => h7 ((hcondFlush1 t).mp h)) (rowB1 V c t) (colB1 V c t) _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [Phi1_castSucc V c t, PhiS1_pos V c _ _ hz]
      iintro ⟨⟨⟨HS, Hoth⟩, Hg⟩, Ho, ⟨%d0, H0⟩, ⟨%d1, H1⟩, ⟨%d2, H2⟩⟩
      iapply (body1_first c Set.univ (grid1.coords t) _ _ _ _ _ _ _ _ ((hcondReset1 t).mpr h0) (fun h => h7 ((hcondFlush1 t).mp h)) (rowB1 V c t) (colB1 V c t) _ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    rw [sc1_next V c t h0]
    rw [Phi1_castSucc V c t, PhiS1_pos V c _ _ hz]
    by_cases h7 : t.val % 8 = 7
    · rw [show (dat1 V c).leavesExact 2 t = owns (c : Thread nD τ) (st1_2 t) fullShare ((dat1 V c).after 2 t) from by
        unfold Dat.leavesExact; rw [liveAt1_2 t h7], after1_2, sc1_next V c t h0]
      iintro ⟨⟨⟨HS, Hoth⟩, Hg⟩, Ho, ⟨%d0, H0⟩, ⟨%d1, H1⟩, ⟨%d2, H2⟩⟩
      iapply (body1_last c Set.univ (grid1.coords t) _ _ _ _ _ _ _ _ (fun h => h0 ((hcondReset1 t).mp h)) ((hcondFlush1 t).mpr h7) (rowB1 V c t) (colB1 V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat1 V c) 2 t (idleAt1_2 t h7) (noFlush1_2 t h7)]
      iintro ⟨⟨⟨HS, Hoth⟩, Hg⟩, Ho, ⟨%d0, H0⟩, ⟨%d1, H1⟩, ⟨%d2, H2⟩⟩
      iapply (body1_mid c Set.univ (grid1.coords t) _ _ _ _ _ _ _ _ (fun h => h0 ((hcondReset1 t).mp h)) (fun h => h7 ((hcondFlush1 t).mp h)) (rowB1 V c t) (colB1 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hoth⟩, Hg⟩
  isplitl [HS Hoth]
  · isplitl [HS]; · iexists _; iexact HS
    iexact Hoth
  iexact Hg

end Cert.KernelIdeal.Hand

end
-- ==== Proof.Run.lean ====
/-
  The run of the kernel program: @main is host operations, region 0, region 1, host operations. The contents
  of the core's unscoped buffers at each boundary are a fold from the launch memory: the host operations'
  results after the first stretch; then region 0's output array at what its write-backs leave; then region 1's;
  then the host operations' results again. Each region is entered from what the segment before it left, each
  pipeline's proof data is taken at its region's entry contents, and one launch of the whole list says: every
  execution ends, and at the end every unscoped buffer holds the last boundary's contents. The frame and the
  values are both read off that.
-/
import proofs.«118349_j11184094838808_1_alg».proof.Proof.Region0
import proofs.«118349_j11184094838808_1_alg».proof.Proof.Region1
import proofs.«118349_j11184094838808_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev M0 : Dev nD → Valuation τ sig (Elt F) := fun c b => (s₀ m ρ).mem ((c : Dev nD), b)
/-- After the first host stretch (region 0's entry). -/
abbrev M1 : Dev nD → Valuation τ sig (Elt F) := fun c => StableHlo.after hostOps0 (M0 m ρ c)
/-- The same read at the TensorCore's references. -/
abbrev E1 : (c : Dev nD) → (b : Ref sig .tc) → Buf (Elt F) ((c : Thread nD τ).loc b) := fun c b => M1 m ρ c b
/-- At region 0's exit (region 1's entry): its arrays at what the pipeline leaves, every other buffer as entered. -/
def M2 (c : Dev nD) : Valuation τ sig (Elt F) :=
  Pipeline.withArrays spec0 c (M1 m ρ c) fun w => (dat0 (E1 m ρ) c).arrAt w cfg0.N
theorem M2_arr (c : Dev nD) (w : Fin cfg0.W) :
    M2 m ρ c (Proc.devRef .tc (Pipeline.arrRef spec0 w)) = (dat0 (E1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
abbrev E2 : (c : Dev nD) → (b : Ref sig .tc) → Buf (Elt F) ((c : Thread nD τ).loc b) := fun c b => M2 m ρ c b
theorem hF0 (c : Dev nD) (w : Fin cfg0.W) : (dat0 (E1 m ρ) c).arrAt w cfg0.N = E2 m ρ c (Pipeline.arrRef spec0 w) :=
  (M2_arr m ρ c w).symm
theorem hrest0 (c : Dev nD) : ∀ b, b ∉ Finset.univ.image (Pipeline.arrRef spec0) → E2 m ρ c b = E1 m ρ c b :=
  fun b hb => M2_of_ne m ρ c b fun w e => hb (Finset.mem_image.mpr ⟨w, Finset.mem_univ _, e⟩)
/-- At region 1's exit: its arrays at what the pipeline leaves, every other buffer as entered. -/
def M3 (c : Dev nD) : Valuation τ sig (Elt F) :=
  Pipeline.withArrays spec1 c (M2 m ρ c) fun w => (dat1 (E2 m ρ) c).arrAt w cfg1.N
theorem M3_arr (c : Dev nD) (w : Fin cfg1.W) :
    M3 m ρ c (Proc.devRef .tc (Pipeline.arrRef spec1 w)) = (dat1 (E2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev E3 : (c : Dev nD) → (b : Ref sig .tc) → Buf (Elt F) ((c : Thread nD τ).loc b) := fun c b => M3 m ρ c b
theorem hF1 (c : Dev nD) (w : Fin cfg1.W) : (dat1 (E2 m ρ) c).arrAt w cfg1.N = E3 m ρ c (Pipeline.arrRef spec1 w) :=
  (M3_arr m ρ c w).symm
theorem hrest1 (c : Dev nD) : ∀ b, b ∉ Finset.univ.image (Pipeline.arrRef spec1) → E3 m ρ c b = E2 m ρ c b :=
  fun b hb => M3_of_ne m ρ c b fun w e => hb (Finset.mem_image.mpr ⟨w, Finset.mem_univ _, e⟩)
/-- After the last host stretch: the end. -/
abbrev M4 : Dev nD → Valuation τ sig (Elt F) := fun c => StableHlo.after hostOps2 (M3 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core
    owing nothing. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tn (c : Dev nD) : sProp 𝕄 := iprop(StableHlo.held (c : Thread nD τ) (Pipeline.ucRefs τ sig) (M4 m ρ c) ∗ ∃ r, prngReg c r)

/-! ## The regions as segments -/

-- a library lemma stated over a pinned configuration unifies with the printed one only when unification may unfold
-- plain definitions in a metavariable's type
set_option backward.isDefEq.respectTransparency.types false in
/-- Region 0 as a segment: entered from every unscoped buffer at `M1`, left at `M2`. Its arrays are split
    out of the unscoped buffers and put back at what the write-backs leave; the generator register goes into the
    invariant and comes back; the scratch's contents are forgotten at the exit; nothing is owed; the kernel has
    no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (M1 m ρ c) ∗ R c)
  post c := iprop(StableHlo.held (c : Thread nD τ) (Pipeline.ucRefs τ sig) (M2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 as a segment: entered from every unscoped buffer at `M2`, left at `M3`. Its arrays are split
    out of the unscoped buffers and put back at what the write-backs leave; the generator register goes into the
    invariant and comes back; the scratch's contents are forgotten at the exit; nothing is owed; the kernel has
    no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (M2 m ρ c) ∗ R c)
  post c := iprop(StableHlo.held (c : Thread nD τ) (Pipeline.ucRefs τ sig) (M3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev msegs : List (Pipeline.Seg (pcfgs (F := F)) adm (pdats m ρ) () defs₀ 𝒱₀ L lv) :=
  [ .host (hseg hostOps0 hostOps0_sub hostOps0_fresh (M0 m ρ)),
    .region (reg0 m ρ),
    .region (reg1 m ρ),
    .host (hseg hostOps2 hostOps2_sub hostOps2_fresh (M3 m ρ)) ]
/-- @main IS the run of the segments. -/
theorem main_run (c : Dev nD) : main (F := F) c = Pipeline.Seg.run (msegs m ρ) := (main_chain c).trans (by chain_rfl)

set_option backward.isDefEq.respectTransparency.types false in
/-- THE RUN. From any memory with zero counters, every weakly fair execution of @main terminates, nothing
    faulting, and every final state has every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = M4 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ R c)) (Tₙ := Tn m ρ)
    (hch := ⟨fun _ => .rfl, fun _ => .rfl, fun _ => .rfl, fun _ => .rfl, fun c => by
      show iprop(StableHlo.held (c : Thread nD τ) (Pipeline.ucRefs τ sig) (M4 m ρ c) ∗ R c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M4 m ρ c b)
    (hfin := fun c s' => by
      iintro ⟨⟨Hh, -⟩, HSI⟩
      unfold StableHlo.held
      imodintro
      iapply (pointsTo_read_all (Pipeline.ucRefs τ sig) (fun b => (((c : Thread nD τ)).1, b)) (M4 m ρ c) s')
      isplitl [Hh] <;> iassumption)
    (hQ := fun s h => h)

/-! ## The arguments end as launched

No host operation writes an argument; each region reads the two clouds through input windows, whose arrays the
pipeline never writes, and bypasses the third argument. So the fold at an argument's buffer walks back to the
launch memory. -/

theorem M4_main_arg0 (c : Dev nD) : M4 m ρ c (Proc.devRef .tc main_arg0) = m ((c : Thread nD τ).loc main_arg0) :=
  calc M4 m ρ c (Proc.devRef .tc main_arg0)
    _ = M3 m ρ c (Proc.devRef .tc main_arg0) := StableHlo.after_of_writes_sub hostOps2 _ hostOps2_writes (by decide)
    _ = M2 m ρ c (Proc.devRef .tc main_arg0) := (M3_arr m ρ c 1).trans (((dat1 (E2 m ρ) c).arrAt_in 1 rfl _).trans (A_eq1 (E2 m ρ) c 1))
    _ = M1 m ρ c (Proc.devRef .tc main_arg0) := (M2_arr m ρ c 0).trans (((dat0 (E1 m ρ) c).arrAt_in 0 rfl _).trans (A_eq0 (E1 m ρ) c 0))
    _ = M0 m ρ c (Proc.devRef .tc main_arg0) := StableHlo.after_of_writes_sub hostOps0 _ hostOps0_writes (by decide)
    _ = m ((c : Thread nD τ).loc main_arg0) := rfl

theorem M4_main_arg1 (c : Dev nD) : M4 m ρ c (Proc.devRef .tc main_arg1) = m ((c : Thread nD τ).loc main_arg1) :=
  calc M4 m ρ c (Proc.devRef .tc main_arg1)
    _ = M3 m ρ c (Proc.devRef .tc main_arg1) := StableHlo.after_of_writes_sub hostOps2 _ hostOps2_writes (by decide)
    _ = M2 m ρ c (Proc.devRef .tc main_arg1) := (M3_arr m ρ c 0).trans (((dat1 (E2 m ρ) c).arrAt_in 0 rfl _).trans (A_eq1 (E2 m ρ) c 0))
    _ = M1 m ρ c (Proc.devRef .tc main_arg1) := (M2_arr m ρ c 1).trans (((dat0 (E1 m ρ) c).arrAt_in 1 rfl _).trans (A_eq0 (E1 m ρ) c 1))
    _ = M0 m ρ c (Proc.devRef .tc main_arg1) := StableHlo.after_of_writes_sub hostOps0 _ hostOps0_writes (by decide)
    _ = m ((c : Thread nD τ).loc main_arg1) := rfl

theorem M4_main_arg2 (c : Dev nD) : M4 m ρ c (Proc.devRef .tc main_arg2) = m ((c : Thread nD τ).loc main_arg2) :=
  calc M4 m ρ c (Proc.devRef .tc main_arg2)
    _ = M3 m ρ c (Proc.devRef .tc main_arg2) := StableHlo.after_of_writes_sub hostOps2 _ hostOps2_writes (by decide)
    _ = M2 m ρ c (Proc.devRef .tc main_arg2) := M3_of_ne m ρ c main_arg2 (by decide)
    _ = M1 m ρ c (Proc.devRef .tc main_arg2) := M2_of_ne m ρ c main_arg2 (by decide)
    _ = M0 m ρ c (Proc.devRef .tc main_arg2) := StableHlo.after_of_writes_sub hostOps0 _ hostOps0_writes (by decide)
    _ = m ((c : Thread nD τ).loc main_arg2) := rfl

/-- THE FRAME, at any float instance: every execution ends, nothing faulting, the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (M4_main_arg0 m ρ c),
      (h c _ (mem_uc main_arg1 (by decide))).trans (M4_main_arg1 m ρ c),
      (h c _ (mem_uc main_arg2 (by decide))).trans (M4_main_arg2 m ρ c)⟩) (run_main m ρ)

end Cert.KernelIdeal.Hand

end
-- ==== Proof.ChamferSpec.lean ====
/-
  The mathematics both programs compute, stated once over the extended reals.

  For two clouds of points `X : [8, n, 3]` and `Y : [8, k, 3]` (batch, point, coordinate) the clamped
  squared distance between point `p` of `X` and point `q` of `Y` in batch `b` is

      d2 X Y b p q = max ((|X_p|² + |Y_q|²) − 2 · ⟨X_p, Y_q⟩) 0,

  with `|X_p|² = ∑_d X(b,p,d)²` and `⟨X_p, Y_q⟩ = ∑_d X(b,p,d) · Y(b,q,d)`. Each program takes, for every
  point, the minimum of `d2` over all points of the other cloud, starting from `+∞`. A minimum is
  carried here by its universal property: `c ≤ min_q f q` exactly when `c ≤ f q` for every `q`; two
  values with the same lower bounds are equal.

  The literals `2.0`, `0.0` are kept as the printed words: the same word stands on both sides and is
  never evaluated. Only `+∞` is evaluated (it is the top element, so that a fold of `min` from it is the
  plain infimum).
-/
import Idealize.ShloMosaic.PureOps.Ideal
import Idealize.ShloMosaic.PureOps.Ideal.Laws
import Idealize.ShloMosaic.Lib.ValueIdx
import Mathlib.Data.Finset.Fold
import Mathlib.Algebra.BigOperators.Fin

noncomputable section

open scoped BigOperators

namespace Cert.Chamfer

open Idealize.ShloMosaic Idealize.ShloMosaic.ValueIdx

/-- The printed word of `2.0`, read at the extended reals. -/
abbrev two : EReal := Ideal.ofBits .f32 0x40000000#32
/-- The printed word of `0.0`, read at the extended reals. -/
abbrev zero : EReal := Ideal.ofBits .f32 0x00000000#32
/-- The printed word of `+∞`, read at the extended reals. -/
abbrev pinf : EReal := Ideal.ofBits .f32 0x7F800000#32

/-- The word `0x7F800000` is the top element of the extended reals. -/
theorem pinf_eq_top : pinf = ⊤ := by
  show Ideal.ofBits .f32 0x7F800000#32 = ⊤
  simp [Ideal.ofBits, Ideal.ieee]

variable {n k : Nat}

/-- The squared norm of point `p` of batch `b`. -/
def sq (X : FVec Ideal ⟨3, ![8, n, 3]⟩ .f32) (b : Fin 8) (p : Fin n) : EReal :=
  ∑ d : Fin 3, X (ix3 b p d) * X (ix3 b p d)

/-- The inner product of point `p` of `X` and point `q` of `Y`, in batch `b`. -/
def dotp (X : FVec Ideal ⟨3, ![8, n, 3]⟩ .f32) (Y : FVec Ideal ⟨3, ![8, k, 3]⟩ .f32) (b : Fin 8) (p : Fin n) (q : Fin k) : EReal :=
  ∑ d : Fin 3, X (ix3 b p d) * Y (ix3 b q d)

/-- The clamped squared distance between point `p` of `X` and point `q` of `Y`, in batch `b`. -/
def d2 (X : FVec Ideal ⟨3, ![8, n, 3]⟩ .f32) (Y : FVec Ideal ⟨3, ![8, k, 3]⟩ .f32) (b : Fin 8) (p : Fin n) (q : Fin k) : EReal :=
  max ((sq X b p + sq Y b q) - two * dotp X Y b p q) zero

/-- The distance does not depend on which cloud is named first: addition and multiplication of
    extended reals commute. -/
theorem d2_swap (X : FVec Ideal ⟨3, ![8, n, 3]⟩ .f32) (Y : FVec Ideal ⟨3, ![8, k, 3]⟩ .f32) (b : Fin 8) (p : Fin n) (q : Fin k) :
    d2 Y X b q p = d2 X Y b p q := by
  have h : dotp Y X b q p = dotp X Y b p q := Finset.sum_congr rfl fun d _ => mul_comm _ _
  unfold d2
  rw [h, add_comm (sq Y b q)]

/-- The universal property of a minimum taken from `+∞`: a lower bound of the fold is a lower bound of
    every term. -/
theorem le_foldmin_iff {ι : Type} [Fintype ι] (f : ι → EReal) (c : EReal) :
    c ≤ (Finset.univ : Finset ι).fold min pinf f ↔ ∀ i, c ≤ f i := by
  rw [Finset.le_fold_min, pinf_eq_top]
  simp

/-- Two extended reals with the same lower bounds are equal. -/
theorem eq_of_le_iff {a b : EReal} (h : ∀ c : EReal, c ≤ a ↔ c ≤ b) : a = b :=
  le_antisymm ((h a).mp le_rfl) ((h b).mpr le_rfl)

/-- A bound over all of `Fin (m * w)` is a bound tile by tile: every index is `w * t + r` for one tile `t`
    and one offset `r`. -/
theorem forall_fin_mul_iff {m w : Nat} (P : Fin (m * w) → Prop) :
    (∀ q : Fin (m * w), P q) ↔ ∀ (t : Fin m) (r : Fin w), P ⟨w * t.val + r.val, by
      have := t.isLt; have := r.isLt
      calc w * t.val + r.val < w * t.val + w := by omega
        _ = w * (t.val + 1) := by ring
        _ ≤ w * m := Nat.mul_le_mul_left _ (by omega)
        _ = m * w := Nat.mul_comm _ _⟩ := by
  constructor
  · intro h t r
    exact h _
  · intro h q
    obtain ⟨qv, hq⟩ := q
    have hw : 0 < w := by
      rcases Nat.eq_zero_or_pos w with h0 | h0
      · subst h0
        exact absurd hq (by simp)
      · exact h0
    have ht : qv / w < m := Nat.div_lt_of_lt_mul (by rw [Nat.mul_comm]; exact hq)
    have hr : qv % w < w := Nat.mod_lt _ hw
    have key := h ⟨qv / w, ht⟩ ⟨qv % w, hr⟩
    have e : (⟨w * (qv / w) + qv % w, by rw [Nat.div_add_mod]; exact hq⟩ : Fin (m * w)) = ⟨qv, hq⟩ :=
      Fin.ext (Nat.div_add_mod _ _)
    rw [← e]
    exact key

/-- For every point `p` of `X`, the least clamped squared distance to a point of `Y` (`+∞` if `Y` has none):
    what one nearest-neighbour pass leaves, as one whole-array function of the two clouds. -/
def nearest (X : FVec Ideal ⟨3, ![8, n, 3]⟩ .f32) (Y : FVec Ideal ⟨3, ![8, k, 3]⟩ .f32) : FVec Ideal ⟨2, ![8, n]⟩ .f32 :=
  fun i => (Finset.univ : Finset (Fin k)).fold min pinf fun q => d2 X Y ⟨(i 0).val, (i 0).isLt⟩ ⟨(i 1).val, (i 1).isLt⟩ q

/-- Its lower bounds at `(b, p)` are the common lower bounds of the distances from `p`. -/
theorem le_nearest_iff (X : FVec Ideal ⟨3, ![8, n, 3]⟩ .f32) (Y : FVec Ideal ⟨3, ![8, k, 3]⟩ .f32) (b : Fin 8) (p : Fin n) (c : EReal) :
    c ≤ nearest X Y (ix2 b p) ↔ ∀ q : Fin k, c ≤ d2 X Y b p q :=
  le_foldmin_iff (fun q => d2 X Y b p q) c

end Cert.Chamfer

end
-- ==== Proof.TileMin.lean ====
/-
  The kernel body's arithmetic read at one index, at the extended reals.

  The body keeps, for each row point, the minimum so far of the clamped squared distances to the column points:
  the update at `(b, j)` is `min` of the old entry and of the minimum over the tile's columns `q` of
  `max ((|x_j|² + |y_q|²) − 2 · ⟨x_j, y_q⟩) 0`. Each operation is read at an index: the two sums of squares along the
  coordinate axis, kept as a unit axis and spread over the tile; the block product as the inner product over the one
  contracted axis; the minimum along the last axis as a fold of `min` from `+∞`, carried by its lower bounds.
-/
import proofs.«118349_j11184094838808_1_alg».proof.Proof.Gen.KernelIdeal.Skeleton
import proofs.«118349_j11184094838808_1_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileMin

open Cert.KernelIdeal Cert.KernelIdeal.Gen Idealize.ShloMosaic Idealize.ShloMosaic.ValueIdx Cert.Chamfer

/-! ## A minimum along the last axis, read at an index -/

/-- A minimum-reduction of a `[8, 512, 512]` array along its last axis, from the word of `+∞`, is at `(b, j)` the fold of
    `min` from `+∞` over the entries `(b, j, q)`: the reduced index with the coordinate `q` put back on the last axis. -/
theorem minReduce_apply (src : FVec Ideal S8x512x512 .f32) (h : S8x512x512.Reduces [2] S8x512) (hφ : FKind.Formats .f32)
    (hacc : (0x7F800000#32 : BitVec 32) = FKind.minimumf.neutral .f32 hφ) (b : Fin 8) (j : Fin 512) :
    multiReduction .minimumf [2] S8x512 src 0x7F800000#32 h hφ hacc (ix2 b j)
      = (Finset.univ : Finset (Fin 512)).fold min pinf fun q => src (ix3 b j q) := by
  rw [multiReduction_minimumf_eq_fold]
  refine (h.fold_filter_drop_single _ _ src (ix2 b j)).trans ?_
  have e : (src ∘ h.lift (ix2 b j)) = fun q : Fin 512 => src (ix3 b j q) :=
    funext fun q => congrArg src (funext fun a => Fin.ext (by
      match a with
      | ⟨0, _⟩ => rfl
      | ⟨1, _⟩ => rfl
      | ⟨2, _⟩ => rfl))
  show (Finset.univ : Finset (Fin 512)).fold min pinf (src ∘ h.lift (ix2 b j)) = _
  rw [e]
  rfl

/-! ## The squared norms: a sum along the coordinate axis, kept as a unit axis and spread over the tile -/

/-- The sum of squares along the coordinate axis, at point `(b, p)`. -/
theorem sumSq_apply (v : FVec Ideal S8x512x3 .f32) (h : S8x512x3.Reduces [2] S8x512) (hφ : FKind.Formats .f32)
    (hacc : (0x00000000#32 : BitVec 32) = FKind.add.neutral .f32 hφ) (b : Fin 8) (p : Fin 512) :
    multiReduction .add [2] S8x512 (mulf v v) 0x00000000#32 h hφ hacc (ix2 b p) = Cert.Chamfer.sq v b p := by
  rw [Ideal.multiReduction_add_single]
  unfold Cert.Chamfer.sq
  refine Finset.sum_congr rfl fun d _ => ?_
  have e : h.lift (ix2 b p) d = ix3 b p d := funext fun a => Fin.ext (by
    match a with
    | ⟨0, _⟩ => rfl
    | ⟨1, _⟩ => rfl
    | ⟨2, _⟩ => rfl)
  rw [e]
  rfl

/-- A `[8, 512]` array viewed as `[8, 512, 1]` and spread along the last axis reads, at `(b, p, q)`, its entry `(b, p)`:
    the row point's value stands in every column of its row. -/
theorem keepRow_apply {α : Type} (x : S8x512.Idx → α) (h1 : S8x512.ShapeCasts S8x512x1) (h2 : S8x512x1.Broadcasts S8x512x512)
    (b : Fin 8) (p q : Fin 512) :
    broadcastTo S8x512x512 (shapeCast S8x512x1 x h1) h2 (ix3 b p q) = x (ix2 b p) := by
  refine (broadcastTo_apply _ h2 (ix3 b p q) (ix3 b p (0 : Fin 1)) fun a => ?_).trans ?_
  · match a with
    | ⟨0, _⟩ => rfl
    | ⟨1, _⟩ => rfl
    | ⟨2, _⟩ => rfl
  · refine shapeCast_apply x h1 _ _ ?_
    rw [Shape.rowMajor_val_three, Shape.rowMajor_val_two]
    show b.val * 512 + p.val = (b.val * 512 + p.val) * 1 + 0
    omega

/-- A `[8, 512]` array viewed as `[8, 1, 512]` and spread along the middle axis reads, at `(b, p, q)`, its entry `(b, q)`:
    the column point's value stands in every row of its column. -/
theorem keepCol_apply {α : Type} (x : S8x512.Idx → α) (h1 : S8x512.ShapeCasts S8x1x512) (h2 : S8x1x512.Broadcasts S8x512x512)
    (b : Fin 8) (p q : Fin 512) :
    broadcastTo S8x512x512 (shapeCast S8x1x512 x h1) h2 (ix3 b p q) = x (ix2 b q) := by
  refine (broadcastTo_apply _ h2 (ix3 b p q) (ix3 b (0 : Fin 1) q) fun a => ?_).trans ?_
  · match a with
    | ⟨0, _⟩ => rfl
    | ⟨1, _⟩ => rfl
    | ⟨2, _⟩ => rfl
  · refine shapeCast_apply x h1 _ _ ?_
    rw [Shape.rowMajor_val_three, Shape.rowMajor_val_two]
    show b.val * 512 + q.val = (b.val * 1 + 0) * 512 + q.val
    omega

/-! ## The inner products: the block product read at an index

The product's dimension numbers make axis 0 a batch axis, axis 1 of each operand a free axis and axis 2 the one contracted
axis: at `(b, p, q)` the left operand is read at `(b, p, k)` and the right at `(b, q, k)`, `k` the contraction position. -/

theorem lhs_ax0 (i : S8x512x512.Idx) (q : dot_S8x512x3_S8x512x3_S8x512x512_2_2_1_1_0_0.contr.Idx) :
    (dot_S8x512x3_S8x512x3_S8x512x512_2_2_1_1_0_0.lhsIdx i q 0).val = (i 0).val := by
  unfold DotDims.lhsIdx
  rw [dif_pos (show (0 : Fin S8x512x3.rank) ∈ dot_S8x512x3_S8x512x3_S8x512x512_2_2_1_1_0_0.lhsBatch by decide)]
  rfl
theorem lhs_ax1 (i : S8x512x512.Idx) (q : dot_S8x512x3_S8x512x3_S8x512x512_2_2_1_1_0_0.contr.Idx) :
    (dot_S8x512x3_S8x512x3_S8x512x512_2_2_1_1_0_0.lhsIdx i q 1).val = (i 1).val := by
  unfold DotDims.lhsIdx
  rw [dif_neg (show ¬(1 : Fin S8x512x3.rank) ∈ dot_S8x512x3_S8x512x3_S8x512x512_2_2_1_1_0_0.lhsBatch by decide), dif_pos (show (1 : Fin S8x512x3.rank) ∈ dot_S8x512x3_S8x512x3_S8x512x512_2_2_1_1_0_0.lhsNonContracting by decide)]
  rfl
theorem lhs_ax2 (i : S8x512x512.Idx) (q : dot_S8x512x3_S8x512x3_S8x512x512_2_2_1_1_0_0.contr.Idx) :
    (dot_S8x512x3_S8x512x3_S8x512x512_2_2_1_1_0_0.lhsIdx i q 2).val = (q ⟨0, by decide⟩).val :=
  dot_S8x512x3_S8x512x3_S8x512x512_2_2_1_1_0_0.lhsIdx_val_of_single rfl i q
theorem rhs_ax0 (i : S8x512x512.Idx) (q : dot_S8x512x3_S8x512x3_S8x512x512_2_2_1_1_0_0.contr.Idx) :
    (dot_S8x512x3_S8x512x3_S8x512x512_2_2_1_1_0_0.rhsIdx i q 0).val = (i 0).val := by
  unfold DotDims.rhsIdx
  rw [dif_pos (show (0 : Fin S8x512x3.rank) ∈ dot_S8x512x3_S8x512x3_S8x512x512_2_2_1_1_0_0.rhsBatch by decide)]
  rfl
theorem rhs_ax1 (i : S8x512x512.Idx) (q : dot_S8x512x3_S8x512x3_S8x512x512_2_2_1_1_0_0.contr.Idx) :
    (dot_S8x512x3_S8x512x3_S8x512x512_2_2_1_1_0_0.rhsIdx i q 1).val = (i 2).val := by
  unfold DotDims.rhsIdx
  rw [dif_neg (show ¬(1 : Fin S8x512x3.rank) ∈ dot_S8x512x3_S8x512x3_S8x512x512_2_2_1_1_0_0.rhsBatch by decide), dif_pos (show (1 : Fin S8x512x3.rank) ∈ dot_S8x512x3_S8x512x3_S8x512x512_2_2_1_1_0_0.rhsNonContracting by decide)]
  rfl
theorem rhs_ax2 (i : S8x512x512.Idx) (q : dot_S8x512x3_S8x512x3_S8x512x512_2_2_1_1_0_0.contr.Idx) :
    (dot_S8x512x3_S8x512x3_S8x512x512_2_2_1_1_0_0.rhsIdx i q 2).val = (q ⟨0, by decide⟩).val :=
  dot_S8x512x3_S8x512x3_S8x512x512_2_2_1_1_0_0.rhsIdx_val_of_single rfl i q

/-- The block product into a zero accumulator is, at `(b, p, q)`, the inner product of row point `p` and column point `q`:
    the sum over the contraction position, re-indexed by its one coordinate. -/
theorem dot_apply (v3 v4 : FVec Ideal S8x512x3 .f32) (b : Fin 8) (p q : Fin 512) :
    FloatOps.matmul dot_S8x512x3_S8x512x3_S8x512x512_2_2_1_1_0_0 none v3 v4 (constant (F := Ideal) S8x512x512 .f32 0x00000000#32) (ix3 b p q)
      = dotp v3 v4 b p q := by
  rw [Ideal.matmul_constant_zero_apply, ← Equiv.sum_comp (contrEquiv1 dot_S8x512x3_S8x512x3_S8x512x512_2_2_1_1_0_0 3 rfl rfl).symm]
  unfold dotp
  refine Finset.sum_congr rfl fun k _ => ?_
  have hk := contrEquiv1_symm_val dot_S8x512x3_S8x512x3_S8x512x512_2_2_1_1_0_0 3 rfl rfl k
  have el : dot_S8x512x3_S8x512x3_S8x512x512_2_2_1_1_0_0.lhsIdx (ix3 b p q) ((contrEquiv1 dot_S8x512x3_S8x512x3_S8x512x512_2_2_1_1_0_0 3 rfl rfl).symm k) = ix3 b p k :=
    funext fun a => Fin.ext (by
      match a with
      | ⟨0, _⟩ => exact lhs_ax0 _ _
      | ⟨1, _⟩ => exact lhs_ax1 _ _
      | ⟨2, _⟩ => exact (lhs_ax2 _ _).trans hk)
  have er : dot_S8x512x3_S8x512x3_S8x512x512_2_2_1_1_0_0.rhsIdx (ix3 b p q) ((contrEquiv1 dot_S8x512x3_S8x512x3_S8x512x512_2_2_1_1_0_0 3 rfl rfl).symm k) = ix3 b q k :=
    funext fun a => Fin.ext (by
      match a with
      | ⟨0, _⟩ => exact rhs_ax0 _ _
      | ⟨1, _⟩ => exact rhs_ax1 _ _
      | ⟨2, _⟩ => exact (rhs_ax2 _ _).trans hk)
  rw [el, er]

/-! ## The payloads -/

/-- The reset value is `+∞` everywhere. -/
theorem pay1_apply (j : S8x512.Idx) : (k0_pay1 (F := Ideal)) j = pinf := by
  unfold k0_pay1
  rw [shapeCast_self]
  rfl

/-- A lower bound of the updated scratch entry `(b, j)` is a lower bound of the old entry and of every clamped
    squared distance from row point `j` to a column point `q` of this tile. -/
theorem le_pay2_iff (v3 v4 : Vec Ideal S8x512x3 .f32) (v21 : Vec Ideal S8x512 .f32) (b : Fin 8) (j : Fin 512) (c : EReal) :
    c ≤ k0_pay2 (F := Ideal) v3 v4 v21 (ix2 b j) ↔ c ≤ v21 (ix2 b j) ∧ ∀ q : Fin 512, c ≤ d2 v3 v4 b j q := by
  unfold k0_pay2
  -- the outer cast keeps the shape; the update is the minimum of the old entry and the tile's row minimum
  rw [shapeCast_self, minimumf_apply, le_min_iff]
  refine and_congr Iff.rfl ?_
  -- the row minimum is a fold of `min` from `+∞` over the tile's columns, carried by its lower bounds
  refine (iff_of_eq (congrArg (c ≤ ·) (minReduce_apply _ _ _ _ b j))).trans ?_
  refine (le_foldmin_iff _ c).trans (forall_congr' fun q => ?_)
  refine iff_of_eq (congrArg (c ≤ ·) ?_)
  -- the entry `(b, j, q)` of the tile, operation by operation
  show maximumf _ _ (ix3 b j q) = _
  rw [maximumf_apply, subf_apply, addf_apply, mulf_apply, keepRow_apply, keepCol_apply, broadcast_apply, broadcast_apply]
  unfold d2
  exact congrArg₂ max
    (congrArg₂ (· - ·)
      (congrArg₂ (· + ·) (sumSq_apply v3 _ _ _ b j) (sumSq_apply v4 _ _ _ b q))
      (congrArg (two * ·) (dot_apply v3 v4 b j q)))
    rfl

/-- The second region's payloads are the same terms. -/
theorem k1_pay1_eq : (k1_pay1 (F := Ideal)) = k0_pay1 := rfl
theorem k1_pay2_eq : (k1_pay2 (F := Ideal)) = k0_pay2 := rfl

/-- The same two facts for the second region's payloads, which are the same terms. -/
theorem pay1_apply1 (j : S8x512.Idx) : (k1_pay1 (F := Ideal)) j = pinf := by
  rw [k1_pay1_eq]; exact pay1_apply j
theorem le_pay2_iff1 (v3 v4 : Vec Ideal S8x512x3 .f32) (v21 : Vec Ideal S8x512 .f32) (b : Fin 8) (j : Fin 512) (c : EReal) :
    c ≤ k1_pay2 (F := Ideal) v3 v4 v21 (ix2 b j) ↔ c ≤ v21 (ix2 b j) ∧ ∀ q : Fin 512, c ≤ d2 v3 v4 b j q := by
  rw [k1_pay2_eq]; exact le_pay2_iff v3 v4 v21 b j c

end Cert.KernelIdeal.TileMin

end
-- ==== Proof.Region0Value.lean ====
/-
  What region 0 leaves in its output array, at the extended reals.

  The grid is 8 row tiles by 8 column tiles of 512 points each; point `t` works on row tile `t / 8` of the first
  cloud and column tile `t % 8` of the second. The scratch is carried along a row tile: after column tile `k` its
  entry for row point `j` has, as lower bounds, exactly the common lower bounds of the clamped squared distances from
  that row point to the points `q < 512 (k + 1)` of the second cloud (induction on the point: at column tile 0 the
  fold restarts from `+∞`, elsewhere it continues from the point before). At column tile 7 that is every point of the
  second cloud, so the scratch is the row tile's part of the nearest-distance array; it is written back there, and
  the eight write-backs tile the array.
-/
import proofs.«118349_j11184094838808_1_alg».proof.Proof.Region0
import proofs.«118349_j11184094838808_1_alg».proof.Proof.TileMin
import proofs.«118349_j11184094838808_1_alg».proof.Proof.ChamferSpec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem Cert.Chamfer Cert.KernelIdeal.TileMin
open Idealize.ShloMosaic.Pipeline (Dat)

variable (V : (c : Dev nD) → (b : Ref sig .tc) → Buf (Elt Ideal) ((c : Thread nD τ).loc b))

/-- The two clouds as the region finds them, at their literal type. -/
abbrev cloudX (c : Dev nD) : FVec Ideal S8x4096x3 .f32 := V c main_arg0
abbrev cloudY (c : Dev nD) : FVec Ideal S8x4096x3 .f32 := V c main_arg1

/-! ## The blocks are rows of the clouds -/

/-- The printed index maps, decided once over the grid: the row window follows the row tile, the column window the
    column tile, the output window the row tile. -/
theorem idx_facts0 : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

/-- The row block at point `t` is points `512 (t / 8) + j` of the first cloud. -/
theorem rowB0_apply (c : Dev nD) (t : Fin cfg0.N) (b : Fin 8) (j : Fin 512) (d : Fin 3) (p : Fin 4096)
    (hp : p.val = 512 * (t.val / 8) + j.val) :
    rowB0 V c t (ix3 b j d) = cloudX V c (ix3 b p d) := by
  obtain ⟨e0, e1, e2, -⟩ := idx_facts0 t
  unfold rowB0 iblk0
  rw [View.read_apply]
  show V c main_arg0 (((cfg0.win 0).blk t).view.emb (ix3 b j d)) = V c main_arg0 (ix3 b p d)
  congr 1
  funext a
  apply Fin.ext
  match a with
  | ⟨0, _⟩ => show win0_0.index t (0 : Fin 3) * 8 + 1 * b.val = b.val; rw [e0]; omega
  | ⟨1, _⟩ => show win0_0.index t (1 : Fin 3) * 512 + 1 * j.val = p.val; rw [e1, hp]; omega
  | ⟨2, _⟩ => show win0_0.index t (2 : Fin 3) * 3 + 1 * d.val = d.val; rw [e2]; omega

/-- The column block at point `t` is points `512 (t % 8) + r` of the second cloud. -/
theorem colB0_apply (c : Dev nD) (t : Fin cfg0.N) (b : Fin 8) (r : Fin 512) (d : Fin 3) (q : Fin 4096)
    (hq : q.val = 512 * (t.val % 8) + r.val) :
    colB0 V c t (ix3 b r d) = cloudY V c (ix3 b q d) := by
  obtain ⟨-, -, -, e0, e1, e2, -⟩ := idx_facts0 t
  unfold colB0 iblk0
  rw [View.read_apply]
  show V c main_arg1 (((cfg0.win 1).blk t).view.emb (ix3 b r d)) = V c main_arg1 (ix3 b q d)
  congr 1
  funext a
  apply Fin.ext
  match a with
  | ⟨0, _⟩ => show win0_1.index t (0 : Fin 3) * 8 + 1 * b.val = b.val; rw [e0]; omega
  | ⟨1, _⟩ => show win0_1.index t (1 : Fin 3) * 512 + 1 * r.val = q.val; rw [e1, hq]; omega
  | ⟨2, _⟩ => show win0_1.index t (2 : Fin 3) * 3 + 1 * d.val = d.val; rw [e2]; omega

/-- So the distance between a point of the row block and a point of the column block is the distance between the
    two points of the clouds. -/
theorem d2_blocks (c : Dev nD) (t : Fin cfg0.N) (b : Fin 8) (j r : Fin 512) (p q : Fin 4096)
    (hp : p.val = 512 * (t.val / 8) + j.val) (hq : q.val = 512 * (t.val % 8) + r.val) :
    d2 (rowB0 V c t) (colB0 V c t) b j r = d2 (cloudX V c) (cloudY V c) b p q := by
  have hs : sq (rowB0 V c t) b j = sq (cloudX V c) b p :=
    Finset.sum_congr rfl fun d _ => by rw [rowB0_apply V c t b j d p hp]
  have ht : sq (colB0 V c t) b r = sq (cloudY V c) b q :=
    Finset.sum_congr rfl fun d _ => by rw [colB0_apply V c t b r d q hq]
  have hd : dotp (rowB0 V c t) (colB0 V c t) b j r = dotp (cloudX V c) (cloudY V c) b p q :=
    Finset.sum_congr rfl fun d _ => by rw [rowB0_apply V c t b j d p hp, colB0_apply V c t b r d q hq]
  unfold d2
  rw [hs, ht, hd]

/-! ## The scratch after each point -/

/-- A bound over the points below `512 (k + 1)` is a bound over the points below `512 k` and over column tile `k`. -/
theorem forall_lt_tile (P : Fin 4096 → Prop) (k : ℕ) (hk : k < 8) :
    (∀ q : Fin 4096, q.val < 512 * (k + 1) → P q)
      ↔ (∀ q : Fin 4096, q.val < 512 * k → P q) ∧ ∀ r : Fin 512, P ⟨512 * k + r.val, by have := r.isLt; omega⟩ := by
  constructor
  · intro h
    exact ⟨fun q hq => h q (by omega), fun r => h _ (by have := r.isLt; show 512 * k + r.val < _; omega)⟩
  · rintro ⟨h1, h2⟩ q hq
    by_cases hlt : q.val < 512 * k
    · exact h1 q hlt
    · have key := h2 ⟨q.val - 512 * k, by omega⟩
      have e : (⟨512 * k + (q.val - 512 * k), by have := q.isLt; omega⟩ : Fin 4096) = q := Fin.ext (by show 512 * k + (q.val - 512 * k) = q.val; omega)
      rw [e] at key
      exact key

/-- After point `n` the scratch entry of row point `j` is bounded below exactly by the common lower bounds of its
    distances to the points of the column tiles seen so far in this row tile. -/
theorem le_sc0_iff (c : Dev nD) : ∀ (n : ℕ) (hn : n < cfg0.N) (b : Fin 8) (j : Fin 512) (p : Fin 4096)
    (hp : p.val = 512 * (n / 8) + j.val) (x : EReal),
    x ≤ sc0 V c n hn (ix2 b j)
      ↔ ∀ q : Fin 4096, q.val < 512 * (n % 8 + 1) → x ≤ d2 (cloudX V c) (cloudY V c) b p q := by
  intro n
  induction n using Nat.strong_induction_on with
  | _ n ih =>
    intro hn b j p hp x
    have hN : n < 64 := lt_of_lt_of_eq hn N_0
    have hk : n % 8 < 8 := Nat.mod_lt _ (by decide)
    have htile : ∀ r : Fin 512, d2 (rowB0 V c ⟨n, hn⟩) (colB0 V c ⟨n, hn⟩) b j r
        = d2 (cloudX V c) (cloudY V c) b p ⟨512 * (n % 8) + r.val, by have := r.isLt; omega⟩ :=
      fun r => d2_blocks V c ⟨n, hn⟩ b j r p _ hp rfl
    rw [forall_lt_tile _ (n % 8) hk]
    by_cases h0 : n % 8 = 0
    · have e : sc0 V c n hn (ix2 b j) = k0_pay2 (rowB0 V c ⟨n, hn⟩) (colB0 V c ⟨n, hn⟩) (k0_pay1 (F := Ideal)) (ix2 b j) :=
        congrFun (sc0_first V c ⟨n, hn⟩ h0) _
      rw [e]
      refine (le_pay2_iff (rowB0 V c ⟨n, hn⟩) (colB0 V c ⟨n, hn⟩) (k0_pay1 (F := Ideal)) b j x).trans ?_
      rw [pay1_apply, pinf_eq_top]
      refine and_congr ?_ (forall_congr' fun r => by rw [htile r])
      exact ⟨fun _ q hq => absurd hq (by rw [h0]; omega), fun _ => le_top⟩
    · have hn1 : n - 1 < cfg0.N := Nat.lt_of_le_of_lt (Nat.sub_le _ _) hn
      have e : sc0 V c n hn (ix2 b j) = k0_pay2 (rowB0 V c ⟨n, hn⟩) (colB0 V c ⟨n, hn⟩) (sc0 V c (n - 1) hn1) (ix2 b j) :=
        congrFun (sc0_next V c ⟨n, hn⟩ h0) _
      rw [e]
      refine (le_pay2_iff (rowB0 V c ⟨n, hn⟩) (colB0 V c ⟨n, hn⟩) (sc0 V c (n - 1) hn1) b j x).trans ?_
      refine and_congr ?_ (forall_congr' fun r => by rw [htile r])
      rw [ih (n - 1) (by omega) hn1 b j p (by rw [hp]; omega) x]
      rw [show (n - 1) % 8 + 1 = n % 8 from by omega]

/-! ## The output array -/

/-- What the output array is to hold: for every point of the first cloud its least distance to the second. -/
abbrev near0 (c : Dev nD) : FVec Ideal S8x4096 .f32 := nearest (cloudX V c) (cloudY V c)

/-- At the last column tile of a row tile the scratch holds the row tile's entries of that array. -/
theorem sc0_last (c : Dev nD) (t : Fin cfg0.N) (h7 : t.val % 8 = 7) (b : Fin 8) (j : Fin 512) (p : Fin 4096)
    (hp : p.val = 512 * (t.val / 8) + j.val) :
    sc0 V c t.val t.isLt (ix2 b j) = near0 V c (ix2 b p) := by
  refine eq_of_le_iff fun x => ?_
  rw [le_sc0_iff V c t.val t.isLt b j p hp x, le_nearest_iff, h7]
  exact ⟨fun h q => h q q.isLt, fun h q _ => h q⟩

/-- The output block at point `t` is entries `512 (t / 8) + j` of the array. -/
theorem outB0_apply (c : Dev nD) (t : Fin cfg0.N) (G : FVec Ideal S8x4096 .f32) (b : Fin 8) (j : Fin 512) (p : Fin 4096)
    (hp : p.val = 512 * (t.val / 8) + j.val) :
    (((cfg0.win 2).blk t).view.read (Elt Ideal) G : S8x512.Idx → EReal) (ix2 b j) = G (ix2 b p) := by
  obtain ⟨-, -, -, -, -, -, e0, e1⟩ := idx_facts0 t
  rw [View.read_apply]
  show G (((cfg0.win 2).blk t).view.emb (ix2 b j)) = G (ix2 b p)
  congr 1
  funext a
  apply Fin.ext
  match a with
  | ⟨0, _⟩ => show win0_2.index t (0 : Fin 2) * 8 + 1 * b.val = b.val; rw [e0]; omega
  | ⟨1, _⟩ => show win0_2.index t (1 : Fin 2) * 512 + 1 * j.val = p.val; rw [e1, hp]; omega

/-- What a write-back writes is its block of that array. -/
theorem flushed0_eq (c : Dev nD) (t : Fin cfg0.N) (hf : (cfg0.win 2).flush t = true) :
    (dat0 V c).flushed 2 t = ((cfg0.win 2).blk t).view.read (Elt Ideal) (near0 V c) := by
  have h7 : t.val % 8 = 7 := (flush0_2 t).mp hf
  have hN : t.val < 64 := lt_of_lt_of_eq t.isLt N_0
  show (cfg0.win 2).cut (grid0.coords t) ((dat0 V c).after 2 t) = _
  rw [after0_2]
  show (sc0 V c t.val t.isLt : S8x512.Idx → EReal) = (((cfg0.win 2).blk t).view.read (Elt Ideal) (near0 V c) : S8x512.Idx → EReal)
  funext y
  rw [eq_ix2 y]
  have hy : (y 1).val < 512 := idx2_lt1 y
  exact (sc0_last V c t h7 (y 0) (y 1) ⟨512 * (t.val / 8) + (y 1).val, by omega⟩ rfl).trans
    (outB0_apply c t (near0 V c) (y 0) (y 1) _ rfl).symm

/-- An index of the array is in point `t`'s block exactly when each coordinate is in the block's range on its axis. -/
theorem mem_blk0 (t : Fin cfg0.N) (i : S8x4096.Idx) :
    i ∈ ((cfg0.win 2).blk t).view.set
      ↔ ∀ a : Fin 2, win0_2.index t a * S8x512.size a ≤ (i a).val ∧ (i a).val < win0_2.index t a * S8x512.size a + S8x512.size a := by
  show i ∈ ((View.whole main_v7).slice (win0_2.rect t)).set ↔ _
  rw [View.set_slice_whole, Rect.mem_set_unit]
  exact Iff.rfl

/-- Every entry of the array is written back: point `p` is in row tile `p / 512`, written at its last column tile. -/
theorem cover0 (i : S8x4096.Idx) :
    ∃ t : Fin cfg0.N, (cfg0.win 2).flush t = true ∧ i ∈ ((cfg0.win 2).blk t).view.set := by
  have h0 : (i 0).val < 8 := idx2_lt0 i
  have h1 : (i 1).val < 4096 := idx2_lt1 i
  have hN : cfg0.N = 64 := N_0
  have hlt : 8 * ((i 1).val / 512) + 7 < cfg0.N := by rw [hN]; omega
  refine ⟨⟨8 * ((i 1).val / 512) + 7, hlt⟩, (flush0_2 _).mpr (by show (8 * ((i 1).val / 512) + 7) % 8 = 7; omega), ?_⟩
  rw [mem_blk0]
  obtain ⟨-, -, -, -, -, -, e0, e1⟩ := idx_facts0 ⟨8 * ((i 1).val / 512) + 7, hlt⟩
  intro a
  match a with
  | ⟨0, _⟩ =>
    show win0_2.index ⟨8 * ((i 1).val / 512) + 7, hlt⟩ (0 : Fin 2) * 8 ≤ (i 0).val
      ∧ (i 0).val < win0_2.index ⟨8 * ((i 1).val / 512) + 7, hlt⟩ (0 : Fin 2) * 8 + 8
    rw [e0]; omega
  | ⟨1, _⟩ =>
    show win0_2.index ⟨8 * ((i 1).val / 512) + 7, hlt⟩ (1 : Fin 2) * 512 ≤ (i 1).val
      ∧ (i 1).val < win0_2.index ⟨8 * ((i 1).val / 512) + 7, hlt⟩ (1 : Fin 2) * 512 + 512
    rw [e1]
    show (8 * ((i 1).val / 512) + 7) / 8 * 512 ≤ (i 1).val ∧ (i 1).val < (8 * ((i 1).val / 512) + 7) / 8 * 512 + 512
    omega

/-- After region 0 the output array holds, for every point of the first cloud, the least clamped squared distance to a
    point of the second. -/
theorem arr0_eq (c : Dev nD) :
    ((dat0 V c).arrAt 2 cfg0.N : S8x4096.Idx → EReal)
      = nearest (V c main_arg0 : FVec Ideal S8x4096x3 .f32) (V c main_arg1 : FVec Ideal S8x4096x3 .f32) :=
  (dat0 V c).arrAt_eq_of_cover 2 (near0 V c) (flushed0_eq V c) cover0

end Cert.KernelIdeal.Hand

end
-- ==== Proof.Region1Value.lean ====
/-
  What region 1 leaves in its output array, at the extended reals.

  The grid is 8 row tiles by 8 column tiles of 512 points each; point `t` works on row tile `t / 8` of the second
  cloud and column tile `t % 8` of the first. The scratch is carried along a row tile: after column tile `k` its
  entry for row point `j` has, as lower bounds, exactly the common lower bounds of the clamped squared distances from
  that row point to the points `q < 512 (k + 1)` of the first cloud (induction on the point: at column tile 0 the
  fold restarts from `+∞`, elsewhere it continues from the point before). At column tile 7 that is every point of the
  first cloud, so the scratch is the row tile's part of the nearest-distance array; it is written back there, and
  the eight write-backs tile the array.
-/
import proofs.«118349_j11184094838808_1_alg».proof.Proof.Region1
import proofs.«118349_j11184094838808_1_alg».proof.Proof.TileMin
import proofs.«118349_j11184094838808_1_alg».proof.Proof.ChamferSpec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem Cert.Chamfer Cert.KernelIdeal.TileMin
open Idealize.ShloMosaic.Pipeline (Dat)

variable (V : (c : Dev nD) → (b : Ref sig .tc) → Buf (Elt Ideal) ((c : Thread nD τ).loc b))

/-- The two clouds as the region finds them, at their literal type. -/
abbrev cloudX1 (c : Dev nD) : FVec Ideal S8x4096x3 .f32 := V c main_arg1
abbrev cloudY1 (c : Dev nD) : FVec Ideal S8x4096x3 .f32 := V c main_arg0

/-! ## The blocks are rows of the clouds -/

/-- The printed index maps, decided once over the grid: the row window follows the row tile, the column window the
    column tile, the output window the row tile. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, _)

/-- The row block at point `t` is points `512 (t / 8) + j` of the second cloud. -/
theorem rowB1_apply (c : Dev nD) (t : Fin cfg1.N) (b : Fin 8) (j : Fin 512) (d : Fin 3) (p : Fin 4096)
    (hp : p.val = 512 * (t.val / 8) + j.val) :
    rowB1 V c t (ix3 b j d) = cloudX1 V c (ix3 b p d) := by
  obtain ⟨e0, e1, e2, -⟩ := idx_facts1 t
  unfold rowB1 iblk1
  rw [View.read_apply]
  show V c main_arg1 (((cfg1.win 0).blk t).view.emb (ix3 b j d)) = V c main_arg1 (ix3 b p d)
  congr 1
  funext a
  apply Fin.ext
  match a with
  | ⟨0, _⟩ => show win1_0.index t (0 : Fin 3) * 8 + 1 * b.val = b.val; rw [e0]; omega
  | ⟨1, _⟩ => show win1_0.index t (1 : Fin 3) * 512 + 1 * j.val = p.val; rw [e1, hp]; omega
  | ⟨2, _⟩ => show win1_0.index t (2 : Fin 3) * 3 + 1 * d.val = d.val; rw [e2]; omega

/-- The column block at point `t` is points `512 (t % 8) + r` of the first cloud. -/
theorem colB1_apply (c : Dev nD) (t : Fin cfg1.N) (b : Fin 8) (r : Fin 512) (d : Fin 3) (q : Fin 4096)
    (hq : q.val = 512 * (t.val % 8) + r.val) :
    colB1 V c t (ix3 b r d) = cloudY1 V c (ix3 b q d) := by
  obtain ⟨-, -, -, e0, e1, e2, -⟩ := idx_facts1 t
  unfold colB1 iblk1
  rw [View.read_apply]
  show V c main_arg0 (((cfg1.win 1).blk t).view.emb (ix3 b r d)) = V c main_arg0 (ix3 b q d)
  congr 1
  funext a
  apply Fin.ext
  match a with
  | ⟨0, _⟩ => show win1_1.index t (0 : Fin 3) * 8 + 1 * b.val = b.val; rw [e0]; omega
  | ⟨1, _⟩ => show win1_1.index t (1 : Fin 3) * 512 + 1 * r.val = q.val; rw [e1, hq]; omega
  | ⟨2, _⟩ => show win1_1.index t (2 : Fin 3) * 3 + 1 * d.val = d.val; rw [e2]; omega

/-- So the distance between a point of the row block and a point of the column block is the distance between the
    two points of the clouds. -/
theorem d2_blocks1 (c : Dev nD) (t : Fin cfg1.N) (b : Fin 8) (j r : Fin 512) (p q : Fin 4096)
    (hp : p.val = 512 * (t.val / 8) + j.val) (hq : q.val = 512 * (t.val % 8) + r.val) :
    d2 (rowB1 V c t) (colB1 V c t) b j r = d2 (cloudX1 V c) (cloudY1 V c) b p q := by
  have hs : sq (rowB1 V c t) b j = sq (cloudX1 V c) b p :=
    Finset.sum_congr rfl fun d _ => by rw [rowB1_apply V c t b j d p hp]
  have ht : sq (colB1 V c t) b r = sq (cloudY1 V c) b q :=
    Finset.sum_congr rfl fun d _ => by rw [colB1_apply V c t b r d q hq]
  have hd : dotp (rowB1 V c t) (colB1 V c t) b j r = dotp (cloudX1 V c) (cloudY1 V c) b p q :=
    Finset.sum_congr rfl fun d _ => by rw [rowB1_apply V c t b j d p hp, colB1_apply V c t b r d q hq]
  unfold d2
  rw [hs, ht, hd]

/-! ## The scratch after each point -/

/-- A bound over the points below `512 (k + 1)` is a bound over the points below `512 k` and over column tile `k`. -/
theorem forall_lt_tile1 (P : Fin 4096 → Prop) (k : ℕ) (hk : k < 8) :
    (∀ q : Fin 4096, q.val < 512 * (k + 1) → P q)
      ↔ (∀ q : Fin 4096, q.val < 512 * k → P q) ∧ ∀ r : Fin 512, P ⟨512 * k + r.val, by have := r.isLt; omega⟩ := by
  constructor
  · intro h
    exact ⟨fun q hq => h q (by omega), fun r => h _ (by have := r.isLt; show 512 * k + r.val < _; omega)⟩
  · rintro ⟨h1, h2⟩ q hq
    by_cases hlt : q.val < 512 * k
    · exact h1 q hlt
    · have key := h2 ⟨q.val - 512 * k, by omega⟩
      have e : (⟨512 * k + (q.val - 512 * k), by have := q.isLt; omega⟩ : Fin 4096) = q := Fin.ext (by show 512 * k + (q.val - 512 * k) = q.val; omega)
      rw [e] at key
      exact key

/-- After point `n` the scratch entry of row point `j` is bounded below exactly by the common lower bounds of its
    distances to the points of the column tiles seen so far in this row tile. -/
theorem le_sc1_iff (c : Dev nD) : ∀ (n : ℕ) (hn : n < cfg1.N) (b : Fin 8) (j : Fin 512) (p : Fin 4096)
    (hp : p.val = 512 * (n / 8) + j.val) (x : EReal),
    x ≤ sc1 V c n hn (ix2 b j)
      ↔ ∀ q : Fin 4096, q.val < 512 * (n % 8 + 1) → x ≤ d2 (cloudX1 V c) (cloudY1 V c) b p q := by
  intro n
  induction n using Nat.strong_induction_on with
  | _ n ih =>
    intro hn b j p hp x
    have hN : n < 64 := lt_of_lt_of_eq hn N_1
    have hk : n % 8 < 8 := Nat.mod_lt _ (by decide)
    have htile : ∀ r : Fin 512, d2 (rowB1 V c ⟨n, hn⟩) (colB1 V c ⟨n, hn⟩) b j r
        = d2 (cloudX1 V c) (cloudY1 V c) b p ⟨512 * (n % 8) + r.val, by have := r.isLt; omega⟩ :=
      fun r => d2_blocks1 V c ⟨n, hn⟩ b j r p _ hp rfl
    rw [forall_lt_tile1 _ (n % 8) hk]
    by_cases h0 : n % 8 = 0
    · have e : sc1 V c n hn (ix2 b j) = k1_pay2 (rowB1 V c ⟨n, hn⟩) (colB1 V c ⟨n, hn⟩) (k1_pay1 (F := Ideal)) (ix2 b j) :=
        congrFun (sc1_first V c ⟨n, hn⟩ h0) _
      rw [e]
      refine (le_pay2_iff1 (rowB1 V c ⟨n, hn⟩) (colB1 V c ⟨n, hn⟩) (k1_pay1 (F := Ideal)) b j x).trans ?_
      rw [pay1_apply1, pinf_eq_top]
      refine and_congr ?_ (forall_congr' fun r => by rw [htile r])
      exact ⟨fun _ q hq => absurd hq (by rw [h0]; omega), fun _ => le_top⟩
    · have hn1 : n - 1 < cfg1.N := Nat.lt_of_le_of_lt (Nat.sub_le _ _) hn
      have e : sc1 V c n hn (ix2 b j) = k1_pay2 (rowB1 V c ⟨n, hn⟩) (colB1 V c ⟨n, hn⟩) (sc1 V c (n - 1) hn1) (ix2 b j) :=
        congrFun (sc1_next V c ⟨n, hn⟩ h0) _
      rw [e]
      refine (le_pay2_iff1 (rowB1 V c ⟨n, hn⟩) (colB1 V c ⟨n, hn⟩) (sc1 V c (n - 1) hn1) b j x).trans ?_
      refine and_congr ?_ (forall_congr' fun r => by rw [htile r])
      rw [ih (n - 1) (by omega) hn1 b j p (by rw [hp]; omega) x]
      rw [show (n - 1) % 8 + 1 = n % 8 from by omega]

/-! ## The output array -/

/-- What the output array is to hold: for every point of the second cloud its least distance to the first. -/
abbrev near1 (c : Dev nD) : FVec Ideal S8x4096 .f32 := nearest (cloudX1 V c) (cloudY1 V c)

/-- At the last column tile of a row tile the scratch holds the row tile's entries of that array. -/
theorem sc1_last (c : Dev nD) (t : Fin cfg1.N) (h7 : t.val % 8 = 7) (b : Fin 8) (j : Fin 512) (p : Fin 4096)
    (hp : p.val = 512 * (t.val / 8) + j.val) :
    sc1 V c t.val t.isLt (ix2 b j) = near1 V c (ix2 b p) := by
  refine eq_of_le_iff fun x => ?_
  rw [le_sc1_iff V c t.val t.isLt b j p hp x, le_nearest_iff, h7]
  exact ⟨fun h q => h q q.isLt, fun h q _ => h q⟩

/-- The output block at point `t` is entries `512 (t / 8) + j` of the array. -/
theorem outB1_apply (c : Dev nD) (t : Fin cfg1.N) (G : FVec Ideal S8x4096 .f32) (b : Fin 8) (j : Fin 512) (p : Fin 4096)
    (hp : p.val = 512 * (t.val / 8) + j.val) :
    (((cfg1.win 2).blk t).view.read (Elt Ideal) G : S8x512.Idx → EReal) (ix2 b j) = G (ix2 b p) := by
  obtain ⟨-, -, -, -, -, -, e0, e1⟩ := idx_facts1 t
  rw [View.read_apply]
  show G (((cfg1.win 2).blk t).view.emb (ix2 b j)) = G (ix2 b p)
  congr 1
  funext a
  apply Fin.ext
  match a with
  | ⟨0, _⟩ => show win1_2.index t (0 : Fin 2) * 8 + 1 * b.val = b.val; rw [e0]; omega
  | ⟨1, _⟩ => show win1_2.index t (1 : Fin 2) * 512 + 1 * j.val = p.val; rw [e1, hp]; omega

/-- What a write-back writes is its block of that array. -/
theorem flushed1_eq (c : Dev nD) (t : Fin cfg1.N) (hf : (cfg1.win 2).flush t = true) :
    (dat1 V c).flushed 2 t = ((cfg1.win 2).blk t).view.read (Elt Ideal) (near1 V c) := by
  have h7 : t.val % 8 = 7 := (flush1_2 t).mp hf
  have hN : t.val < 64 := lt_of_lt_of_eq t.isLt N_1
  show (cfg1.win 2).cut (grid1.coords t) ((dat1 V c).after 2 t) = _
  rw [after1_2]
  show (sc1 V c t.val t.isLt : S8x512.Idx → EReal) = (((cfg1.win 2).blk t).view.read (Elt Ideal) (near1 V c) : S8x512.Idx → EReal)
  funext y
  rw [eq_ix2 y]
  have hy : (y 1).val < 512 := idx2_lt1 y
  exact (sc1_last V c t h7 (y 0) (y 1) ⟨512 * (t.val / 8) + (y 1).val, by omega⟩ rfl).trans
    (outB1_apply c t (near1 V c) (y 0) (y 1) _ rfl).symm

/-- An index of the array is in point `t`'s block exactly when each coordinate is in the block's range on its axis. -/
theorem mem_blk1 (t : Fin cfg1.N) (i : S8x4096.Idx) :
    i ∈ ((cfg1.win 2).blk t).view.set
      ↔ ∀ a : Fin 2, win1_2.index t a * S8x512.size a ≤ (i a).val ∧ (i a).val < win1_2.index t a * S8x512.size a + S8x512.size a := by
  show i ∈ ((View.whole main_v8).slice (win1_2.rect t)).set ↔ _
  rw [View.set_slice_whole, Rect.mem_set_unit]
  exact Iff.rfl

/-- Every entry of the array is written back: point `p` is in row tile `p / 512`, written at its last column tile. -/
theorem cover1 (i : S8x4096.Idx) :
    ∃ t : Fin cfg1.N, (cfg1.win 2).flush t = true ∧ i ∈ ((cfg1.win 2).blk t).view.set := by
  have h0 : (i 0).val < 8 := idx2_lt0 i
  have h1 : (i 1).val < 4096 := idx2_lt1 i
  have hN : cfg1.N = 64 := N_1
  have hlt : 8 * ((i 1).val / 512) + 7 < cfg1.N := by rw [hN]; omega
  refine ⟨⟨8 * ((i 1).val / 512) + 7, hlt⟩, (flush1_2 _).mpr (by show (8 * ((i 1).val / 512) + 7) % 8 = 7; omega), ?_⟩
  rw [mem_blk1]
  obtain ⟨-, -, -, -, -, -, e0, e1⟩ := idx_facts1 ⟨8 * ((i 1).val / 512) + 7, hlt⟩
  intro a
  match a with
  | ⟨0, _⟩ =>
    show win1_2.index ⟨8 * ((i 1).val / 512) + 7, hlt⟩ (0 : Fin 2) * 8 ≤ (i 0).val
      ∧ (i 0).val < win1_2.index ⟨8 * ((i 1).val / 512) + 7, hlt⟩ (0 : Fin 2) * 8 + 8
    rw [e0]; omega
  | ⟨1, _⟩ =>
    show win1_2.index ⟨8 * ((i 1).val / 512) + 7, hlt⟩ (1 : Fin 2) * 512 ≤ (i 1).val
      ∧ (i 1).val < win1_2.index ⟨8 * ((i 1).val / 512) + 7, hlt⟩ (1 : Fin 2) * 512 + 512
    rw [e1]
    show (8 * ((i 1).val / 512) + 7) / 8 * 512 ≤ (i 1).val ∧ (i 1).val < (8 * ((i 1).val / 512) + 7) / 8 * 512 + 512
    omega

/-- After region 1 the output array holds, for every point of the second cloud, the least clamped squared distance to a
    point of the first. -/
theorem arr1_eq (c : Dev nD) :
    ((dat1 V c).arrAt 2 cfg1.N : S8x4096.Idx → EReal)
      = nearest (V c main_arg1 : FVec Ideal S8x4096x3 .f32) (V c main_arg0 : FVec Ideal S8x4096x3 .f32) :=
  (dat1 V c).arrAt_eq_of_cover 2 (near1 V c) (flushed1_eq V c) cover1

end Cert.KernelIdeal.Hand

end
-- ==== Proof.RefValue.lean ====
/-
  The reference's array of clamped squared distances and its two minima, read at an index.

  The reference forms, for every batch `b` and every pair of points `(p, q)`, the squared norms of the two points
  (sums over the three coordinates, from the zero word), their inner product (a batched product), and
  `max ((|x_p|² + |y_q|²) − 2 · ⟨x_p, y_q⟩) 0`; then it takes the minimum over `q` (for every `p`) and the minimum
  over `p` (for every `q`), each from `+∞`. A lower bound of such a minimum is a lower bound of every term.
-/
import proofs.«118349_j11184094838808_1_alg».proof.Proof.Gen.ReferenceIdeal.Read
import proofs.«118349_j11184094838808_1_alg».proof.Proof.ChamferSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Chamfer

/-- the row sums of squares of the first cloud at (b, p): the squared norm of point p; the sum starts from the
    zero word, which is the extended real 0 -/
theorem v8_at (X : (⟨S8x4096x3, .f32⟩ : BufTy).Contents (Elt Ideal)) (b : Fin 8) (p : Fin 4096) :
    val_main_v8 (F := Ideal) X (ix2 b p) = sq X b p := by
  rw [val_main_v8_apply, val_main_cst_2_apply]
  show Ideal.ofBits .f32 0x00000000#32 + _ = _
  rw [Ideal.ofBits_zero_f32, zero_add]
  unfold Cert.Chamfer.sq
  refine Finset.sum_congr rfl fun d _ => ?_
  rw [val_main_v7_apply]
  have e : idx_main_v8 (ix2 b p) d = ix3 b p d :=
    funext fun a => Fin.ext (by match a with | ⟨0, _⟩ => rfl | ⟨1, _⟩ => rfl | ⟨2, _⟩ => rfl)
  rw [e]
  rfl

/-- the row sums of squares of the second cloud at (b, q): the squared norm of point q -/
theorem v10_at (Y : (⟨S8x4096x3, .f32⟩ : BufTy).Contents (Elt Ideal)) (b : Fin 8) (q : Fin 4096) :
    val_main_v10 (F := Ideal) Y (ix2 b q) = sq Y b q := by
  rw [val_main_v10_apply, val_main_cst_3_apply]
  show Ideal.ofBits .f32 0x00000000#32 + _ = _
  rw [Ideal.ofBits_zero_f32, zero_add]
  unfold Cert.Chamfer.sq
  refine Finset.sum_congr rfl fun d _ => ?_
  rw [val_main_v9_apply]
  have e : idx_main_v10 (ix2 b q) d = ix3 b q d :=
    funext fun a => Fin.ext (by match a with | ⟨0, _⟩ => rfl | ⟨1, _⟩ => rfl | ⟨2, _⟩ => rfl)
  rw [e]
  rfl

/-- the batched product of the clouds at (b, p, q): the inner product of point p and point q -/
theorem v11_at (X Y : (⟨S8x4096x3, .f32⟩ : BufTy).Contents (Elt Ideal)) (b : Fin 8) (p q : Fin 4096) :
    val_main_v11 (F := Ideal) X Y (ix3 b p q) = dotp X Y b p q := by
  rw [val_main_v11_apply]
  unfold Cert.Chamfer.dotp
  refine Finset.sum_congr rfl fun d _ => ?_
  have el : lidx_main_v11 (ix3 b p q) d = ix3 b p d :=
    funext fun a => Fin.ext (by match a with | ⟨0, _⟩ => rfl | ⟨1, _⟩ => rfl | ⟨2, _⟩ => rfl)
  have er : ridx_main_v11 (ix3 b p q) d = ix3 b q d :=
    funext fun a => Fin.ext (by match a with | ⟨0, _⟩ => rfl | ⟨1, _⟩ => rfl | ⟨2, _⟩ => rfl)
  rw [el, er]

/-- the first cloud's squared norms, repeated along the second cloud's points -/
theorem v14_at (X : (⟨S8x4096x3, .f32⟩ : BufTy).Contents (Elt Ideal)) (b : Fin 8) (p q : Fin 4096) :
    val_main_v14 (F := Ideal) X (ix3 b p q) = sq X b p := by
  rw [val_main_v14_apply, val_main_v12_apply]
  have e : idx_main_v12 (idx_main_v14 (ix3 b p q)) = ix2 b p :=
    funext fun a => Fin.ext (by match a with | ⟨0, _⟩ => rfl | ⟨1, _⟩ => rfl)
  rw [e, v8_at]

/-- the second cloud's squared norms, repeated along the first cloud's points -/
theorem v15_at (Y : (⟨S8x4096x3, .f32⟩ : BufTy).Contents (Elt Ideal)) (b : Fin 8) (p q : Fin 4096) :
    val_main_v15 (F := Ideal) Y (ix3 b p q) = sq Y b q := by
  rw [val_main_v15_apply, val_main_v13_apply]
  have e : idx_main_v13 (idx_main_v15 (ix3 b p q)) = ix2 b q :=
    funext fun a => Fin.ext (by match a with | ⟨0, _⟩ => rfl | ⟨1, _⟩ => rfl)
  rw [e, v10_at]

/-- the reference's array of clamped squared distances at (b, p, q) -/
theorem v21_apply (X Y : (⟨S8x4096x3, .f32⟩ : BufTy).Contents (Elt Ideal)) (b : Fin 8) (p q : Fin 4096) :
    val_main_v21 (F := Ideal) X Y (ix3 b p q) = d2 X Y b p q := by
  rw [val_main_v21_apply, val_main_v19_apply, val_main_v16_apply, val_main_v18_apply, val_main_v17_apply,
    val_main_v20_apply, val_main_cst_4_apply, val_main_cst_5_apply, v14_at, v15_at, v11_at]
  rfl

/-- the index over (b, p) with q put on the last axis is (b, p, q) -/
theorem lift_d2 (h : S8x4096x4096.Reduces [2] S8x4096) (b : Fin 8) (p q : Fin 4096) :
    h.lift (ix2 b p) q = ix3 b p q :=
  funext fun a => Fin.ext (by match a with | ⟨0, _⟩ => rfl | ⟨1, _⟩ => rfl | ⟨2, _⟩ => rfl)

/-- the index over (b, q) with p put on the middle axis is (b, p, q) -/
theorem lift_d1 (h : S8x4096x4096.Reduces [1] S8x4096) (b : Fin 8) (p q : Fin 4096) :
    h.lift (ix2 b q) p = ix3 b p q :=
  funext fun a => Fin.ext (by match a with | ⟨0, _⟩ => rfl | ⟨1, _⟩ => rfl | ⟨2, _⟩ => rfl)

/-- a lower bound of the row-wise minimum at (b, p) is a lower bound of every distance from point p of X -/
theorem le_v22_iff (X Y : (⟨S8x4096x3, .f32⟩ : BufTy).Contents (Elt Ideal)) (b : Fin 8) (p : Fin 4096) (c : EReal) :
    c ≤ val_main_v22 (F := Ideal) X Y (ix2 b p) ↔ ∀ q : Fin 4096, c ≤ d2 X Y b p q := by
  have h : S8x4096x4096.Reduces [2] S8x4096 := by decide
  unfold val_main_v22
  rw [Host.reduce_eq_fold_single (FloatOps.minimumf (F := Ideal) (φ := .f32)) (val_main_v21 (F := Ideal) X Y)
    (val_main_cst_6 (F := Ideal)) reducesTo_S8x4096x4096_S8x4096_d2 h h_S_ (ix2 b p)]
  have hf : (val_main_v21 (F := Ideal) X Y ∘ h.lift (ix2 b p)) = fun q : Fin 4096 => d2 X Y b p q :=
    funext fun (q : Fin 4096) =>
      (congrArg (val_main_v21 (F := Ideal) X Y) (lift_d2 h b p q)).trans (v21_apply X Y b p q)
  rw [hf]
  exact le_foldmin_iff _ c

/-- a lower bound of the column-wise minimum at (b, q) is a lower bound of every distance to point q of Y -/
theorem le_v26_iff (X Y : (⟨S8x4096x3, .f32⟩ : BufTy).Contents (Elt Ideal)) (b : Fin 8) (q : Fin 4096) (c : EReal) :
    c ≤ val_main_v26 (F := Ideal) X Y (ix2 b q) ↔ ∀ p : Fin 4096, c ≤ d2 X Y b p q := by
  have h : S8x4096x4096.Reduces [1] S8x4096 := by decide
  unfold val_main_v26
  rw [Host.reduce_eq_fold_single (FloatOps.minimumf (F := Ideal) (φ := .f32)) (val_main_v21 (F := Ideal) X Y)
    (val_main_cst_9 (F := Ideal)) reducesTo_S8x4096x4096_S8x4096_d1 h h_S_ (ix2 b q)]
  have hf : (val_main_v21 (F := Ideal) X Y ∘ h.lift (ix2 b q)) = fun p : Fin 4096 => d2 X Y b p q :=
    funext fun (p : Fin 4096) =>
      (congrArg (val_main_v21 (F := Ideal) X Y) (lift_d1 h b p q)).trans (v21_apply X Y b p q)
  rw [hf]
  exact le_foldmin_iff _ c

end Cert.ReferenceIdeal.RefValue

end
-- ==== Proof.HostTail.lean ====
/-
  The host operations around the two regions, as pure terms of the buffers they read.

  Before the regions: the rate term, the sum of −log₂ of the likelihoods divided by the number of points. After
  them: each nearest-distance array is averaged over its points, the two averages are added, the sum is averaged over
  the batch (the distortion term), and the loss is 1 · distortion + 1 · rate. These are the same operations, on the
  same small shapes, as the reference's last stages: applied to the reference's two minima they ARE its stages.
-/
import proofs.«118349_j11184094838808_1_alg».proof.Proof.Gen.KernelIdeal.Launch
import proofs.«118349_j11184094838808_1_alg».proof.Proof.Gen.KernelIdeal.Regions
import proofs.«118349_j11184094838808_1_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- the rate term: the sum of -log2 of the likelihoods over 32768 -/
def bppOf (x2 : (⟨S8x192x1024, .f32⟩ : BufTy).Contents (Elt F)) : (⟨S_, .f32⟩ : BufTy).Contents (Elt F) :=
  Host.divf (Host.reduceAdd (Host.negf (Host.divf (Host.log x2) (broadcastInDim S8x192x1024 ![] bcast_S_S8x192x1024 (Host.log (constant S_ .f32 0x40000000#32))))) (constant S_ .f32 0x00000000#32) reducesTo_S8x192x1024_S_d0_1_2 h_S_) (constant S_ .f32 0x47000000#32)

/-- the distortion term from the two nearest-neighbour arrays: the mean over the batch of the sum of the two per-cloud means -/
def recOf (a b : (⟨S8x4096, .f32⟩ : BufTy).Contents (Elt F)) : (⟨S_, .f32⟩ : BufTy).Contents (Elt F) :=
  Host.divf (Host.reduceAdd (addf (Host.divf (Host.reduceAdd a (constant S_ .f32 0x00000000#32) reducesTo_S8x4096_S8_d1 h_S_) (broadcastInDim S8 ![] bcast_S_S8 (constant S_ .f32 0x45800000#32))) (Host.divf (Host.reduceAdd b (constant S_ .f32 0x00000000#32) reducesTo_S8x4096_S8_d1 h_S_) (broadcastInDim S8 ![] bcast_S_S8 (constant S_ .f32 0x45800000#32)))) (constant S_ .f32 0x00000000#32) reducesTo_S8_S_d0 h_S_) (constant S_ .f32 0x41000000#32)

/-- the loss: 1·distortion + 1·rate -/
def lossOf (r bpp : (⟨S_, .f32⟩ : BufTy).Contents (Elt F)) : (⟨S_, .f32⟩ : BufTy).Contents (Elt F) :=
  addf (mulf (constant S_ .f32 0x3F800000#32) r) (mulf (constant S_ .f32 0x3F800000#32) bpp)

/-- after the first host stretch the rate buffer holds the rate term of the likelihoods -/
theorem after0_v6 (W : Valuation τ sig (Elt F)) : StableHlo.after hostOps0 W main_v6 = bppOf (F := F) (W main_arg2) := by
  after_results
  rfl

/-- a buffer the first host stretch does not write keeps its contents -/
theorem after0_keep (W : Valuation τ sig (Elt F)) (r : Ref sig .tc) (h : r ∉ hostOps0_W) : StableHlo.after hostOps0 W r = W r :=
  StableHlo.after_of_writes_sub hostOps0 W hostOps0_writes h

/-- after the second host stretch the distortion buffer holds the distortion term of the two nearest-neighbour arrays -/
theorem after2_v17 (W : Valuation τ sig (Elt F)) : StableHlo.after hostOps2 W main_v17 = recOf (F := F) (W main_v7) (W main_v8) := by
  after_results
  rfl

/-- after the second host stretch the loss buffer holds distortion plus rate, the rate read as it stood before the stretch -/
theorem after2_v20 (W : Valuation τ sig (Elt F)) : StableHlo.after hostOps2 W main_v20 = lossOf (F := F) (recOf (F := F) (W main_v7) (W main_v8)) (W main_v6) := by
  after_results
  rfl

/-- a buffer the second host stretch does not write keeps its contents -/
theorem after2_keep (W : Valuation τ sig (Elt F)) (r : Ref sig .tc) (h : r ∉ hostOps2_W) : StableHlo.after hostOps2 W r = W r :=
  StableHlo.after_of_writes_sub hostOps2 W hostOps2_writes h

/-- the same three terms are the reference's stages (its shapes and stated facts are the same literals under other names) -/
theorem bppOf_ref (Z : (⟨Cert.ReferenceIdeal.S8x192x1024, .f32⟩ : BufTy).Contents (Elt Ideal)) :
    bppOf (F := Ideal) Z = Cert.ReferenceIdeal.Read.val_main_v6 (F := Ideal) Z := rfl

theorem recOf_ref (X Y : (⟨Cert.ReferenceIdeal.S8x4096x3, .f32⟩ : BufTy).Contents (Elt Ideal)) :
    recOf (F := Ideal) (Cert.ReferenceIdeal.Read.val_main_v22 (F := Ideal) X Y) (Cert.ReferenceIdeal.Read.val_main_v26 (F := Ideal) X Y)
      = Cert.ReferenceIdeal.Read.val_main_v32 (F := Ideal) X Y := by
  unfold Cert.ReferenceIdeal.Read.val_main_v32 Cert.ReferenceIdeal.Read.val_main_v31 Cert.ReferenceIdeal.Read.val_main_v30
    Cert.ReferenceIdeal.Read.val_main_v25 Cert.ReferenceIdeal.Read.val_main_v29 Cert.ReferenceIdeal.Read.val_main_v23
    Cert.ReferenceIdeal.Read.val_main_v27
  generalize Cert.ReferenceIdeal.Read.val_main_v22 (F := Ideal) X Y = a
  generalize Cert.ReferenceIdeal.Read.val_main_v26 (F := Ideal) X Y = b
  rfl

theorem lossOf_ref (X Y : (⟨Cert.ReferenceIdeal.S8x4096x3, .f32⟩ : BufTy).Contents (Elt Ideal))
    (Z : (⟨Cert.ReferenceIdeal.S8x192x1024, .f32⟩ : BufTy).Contents (Elt Ideal)) :
    lossOf (F := Ideal) (Cert.ReferenceIdeal.Read.val_main_v32 (F := Ideal) X Y) (Cert.ReferenceIdeal.Read.val_main_v6 (F := Ideal) Z)
      = Cert.ReferenceIdeal.Read.val_main_v35 (F := Ideal) X Y Z := rfl

end Cert.KernelIdeal.Hand

end
-- ==== Proof.KernelValue.lean ====
/-
  What the kernel program returns, read at the extended reals, in the reference's own terms.

  Region 0 leaves, for every point of the first cloud, its least clamped squared distance to the second cloud;
  the reference's row-wise minimum is the same number, because the two have the same lower bounds. Region 1
  leaves the same for the second cloud against the first; the reference's column-wise minimum agrees with it
  because the distance does not depend on which cloud is named first. The host operations before and after the
  regions are the reference's own, so the three results are the reference's three stages of the launch arrays.
-/
import proofs.«118349_j11184094838808_1_alg».proof.Proof.Run
import proofs.«118349_j11184094838808_1_alg».proof.Proof.Region0Value
import proofs.«118349_j11184094838808_1_alg».proof.Proof.Region1Value
import proofs.«118349_j11184094838808_1_alg».proof.Proof.RefValue
import proofs.«118349_j11184094838808_1_alg».proof.Proof.HostTail

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Chamfer
open Cert.ReferenceIdeal.Read (val_main_v22 val_main_v26 val_main_v6 val_main_v32 val_main_v35)

/-! ## The two minima are the reference's -/

/-- The least distance from each point of `X` to `Y` is the reference's row-wise minimum: same lower bounds. -/
theorem nearest_eq_v22 (X Y : FVec Ideal ⟨3, ![8, 4096, 3]⟩ .f32) :
    nearest X Y = val_main_v22 (F := Ideal) X Y := by
  funext i
  obtain ⟨b, p, rfl⟩ : ∃ (b : Fin 8) (p : Fin 4096), i = ix2 b p := ⟨i 0, i 1, eq_ix2 i⟩
  exact eq_of_le_iff fun c => (le_nearest_iff X Y b p c).trans (Cert.ReferenceIdeal.RefValue.le_v22_iff X Y b p c).symm

/-- The least distance from each point of `Y` to `X` is the reference's column-wise minimum: the distance is
    symmetric in the two clouds. -/
theorem nearest_swap_eq_v26 (X Y : FVec Ideal ⟨3, ![8, 4096, 3]⟩ .f32) :
    nearest Y X = val_main_v26 (F := Ideal) X Y := by
  funext i
  obtain ⟨b, q, rfl⟩ : ∃ (b : Fin 8) (q : Fin 4096), i = ix2 b q := ⟨i 0, i 1, eq_ix2 i⟩
  refine eq_of_le_iff fun c => (le_nearest_iff Y X b q c).trans ?_
  rw [Cert.ReferenceIdeal.RefValue.le_v26_iff X Y b q c]
  exact forall_congr' fun p => by rw [d2_swap X Y b p q]

variable (m : (ℓ : Loc nD τ sig) → Buf (Elt Ideal) ℓ) (ρ : Dev nD → PrngReg)

/-! ## The clouds reach both regions as launched -/

theorem E1_main_arg0 (c : Dev nD) : E1 m ρ c main_arg0 = m ((c : Thread nD τ).loc main_arg0) :=
  after0_keep (M0 m ρ c) main_arg0 (by decide)
theorem E1_main_arg1 (c : Dev nD) : E1 m ρ c main_arg1 = m ((c : Thread nD τ).loc main_arg1) :=
  after0_keep (M0 m ρ c) main_arg1 (by decide)
theorem E2_main_arg0 (c : Dev nD) : E2 m ρ c main_arg0 = m ((c : Thread nD τ).loc main_arg0) :=
  ((M2_arr m ρ c 0).trans (((dat0 (E1 m ρ) c).arrAt_in 0 rfl _).trans (A_eq0 (E1 m ρ) c 0))).trans (E1_main_arg0 m ρ c)
theorem E2_main_arg1 (c : Dev nD) : E2 m ρ c main_arg1 = m ((c : Thread nD τ).loc main_arg1) :=
  ((M2_arr m ρ c 1).trans (((dat0 (E1 m ρ) c).arrAt_in 1 rfl _).trans (A_eq0 (E1 m ρ) c 1))).trans (E1_main_arg1 m ρ c)

/-! ## The buffers the last host stretch reads -/

/-- Region 0's output array, as the last host stretch finds it, is the reference's row-wise minimum of the
    launch clouds. -/
theorem M3_main_v7 (c : Dev nD) :
    M3 m ρ c main_v7 = val_main_v22 (F := Ideal) (m ((c : Thread nD τ).loc main_arg0)) (m ((c : Thread nD τ).loc main_arg1)) :=
  calc M3 m ρ c main_v7
    _ = M2 m ρ c main_v7 := M3_of_ne m ρ c main_v7 (by decide)
    _ = (dat0 (E1 m ρ) c).arrAt 2 cfg0.N := M2_arr m ρ c 2
    _ = nearest (E1 m ρ c main_arg0 : FVec Ideal S8x4096x3 .f32) (E1 m ρ c main_arg1 : FVec Ideal S8x4096x3 .f32) := arr0_eq (E1 m ρ) c
    _ = nearest (m ((c : Thread nD τ).loc main_arg0) : FVec Ideal S8x4096x3 .f32) (m ((c : Thread nD τ).loc main_arg1) : FVec Ideal S8x4096x3 .f32) := by
          rw [E1_main_arg0, E1_main_arg1]
    _ = _ := nearest_eq_v22 _ _

/-- Region 1's output array is the reference's column-wise minimum of the launch clouds. -/
theorem M3_main_v8 (c : Dev nD) :
    M3 m ρ c main_v8 = val_main_v26 (F := Ideal) (m ((c : Thread nD τ).loc main_arg0)) (m ((c : Thread nD τ).loc main_arg1)) :=
  calc M3 m ρ c main_v8
    _ = (dat1 (E2 m ρ) c).arrAt 2 cfg1.N := M3_arr m ρ c 2
    _ = nearest (E2 m ρ c main_arg1 : FVec Ideal S8x4096x3 .f32) (E2 m ρ c main_arg0 : FVec Ideal S8x4096x3 .f32) := arr1_eq (E2 m ρ) c
    _ = nearest (m ((c : Thread nD τ).loc main_arg1) : FVec Ideal S8x4096x3 .f32) (m ((c : Thread nD τ).loc main_arg0) : FVec Ideal S8x4096x3 .f32) := by
          rw [E2_main_arg1, E2_main_arg0]
    _ = _ := nearest_swap_eq_v26 _ _

/-- The rate term, computed before the regions, is still there after them, and is the reference's. -/
theorem M3_main_v6 (c : Dev nD) :
    M3 m ρ c main_v6 = val_main_v6 (F := Ideal) (m ((c : Thread nD τ).loc main_arg2)) :=
  calc M3 m ρ c main_v6
    _ = M2 m ρ c main_v6 := M3_of_ne m ρ c main_v6 (by decide)
    _ = M1 m ρ c main_v6 := M2_of_ne m ρ c main_v6 (by decide)
    _ = bppOf (F := Ideal) (M0 m ρ c main_arg2) := after0_v6 (M0 m ρ c)
    _ = _ := bppOf_ref _

/-! ## The three results -/

theorem M4_main_v17 (c : Dev nD) :
    M4 m ρ c main_v17 = val_main_v32 (F := Ideal) (m ((c : Thread nD τ).loc main_arg0)) (m ((c : Thread nD τ).loc main_arg1)) := by
  refine (after2_v17 (M3 m ρ c)).trans ?_
  rw [M3_main_v7, M3_main_v8]
  exact recOf_ref _ _

theorem M4_main_v6 (c : Dev nD) :
    M4 m ρ c main_v6 = val_main_v6 (F := Ideal) (m ((c : Thread nD τ).loc main_arg2)) :=
  (after2_keep (M3 m ρ c) main_v6 (by decide)).trans (M3_main_v6 m ρ c)

theorem M4_main_v20 (c : Dev nD) :
    M4 m ρ c main_v20 = val_main_v35 (F := Ideal) (m ((c : Thread nD τ).loc main_arg0)) (m ((c : Thread nD τ).loc main_arg1)) (m ((c : Thread nD τ).loc main_arg2)) := by
  refine (after2_v20 (M3 m ρ c)).trans ?_
  rw [M3_main_v7, M3_main_v8, M3_main_v6, recOf_ref]
  exact lossOf_ref _ _ _

/-- THE VALUES: every execution of the idealized kernel program ends with its three results at the reference's
    three stages of the launch arrays, and the arguments as launched. -/
theorem run_values : θ_run defs (onTc (τ := τ) (main (F := Ideal))) ⟨m, fun _ => 0, ρ⟩ (fun r => ∀ c : Dev nD,
      r.2.mem ((c.tc : Thread nD τ).loc main_v20) = val_main_v35 (F := Ideal) (m ((c.tc : Thread nD τ).loc main_arg0)) (m ((c.tc : Thread nD τ).loc main_arg1)) (m ((c.tc : Thread nD τ).loc main_arg2))
      ∧ r.2.mem ((c.tc : Thread nD τ).loc main_v6) = val_main_v6 (F := Ideal) (m ((c.tc : Thread nD τ).loc main_arg2))
      ∧ r.2.mem ((c.tc : Thread nD τ).loc main_v17) = val_main_v32 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v20 (by decide))).trans (M4_main_v20 m ρ c),
      (h c _ (mem_uc main_v6 (by decide))).trans (M4_main_v6 m ρ c),
      (h c _ (mem_uc main_v17 (by decide))).trans (M4_main_v17 m ρ c),
      (h c _ (mem_uc main_arg0 (by decide))).trans (M4_main_arg0 m ρ c),
      (h c _ (mem_uc main_arg1 (by decide))).trans (M4_main_arg1 m ρ c),
      (h c _ (mem_uc main_arg2 (by decide))).trans (M4_main_arg2 m ρ c)⟩) (run_main m ρ)

end Cert.KernelIdeal.Hand

end
-- ==== Proof.lean ====
/-
  The certificate: a chamfer rate–distortion loss. The kernel program computes the rate term by host
  operations, runs one nearest-neighbour kernel twice (each cloud against the other; every run keeps a running
  minimum over column tiles of the clamped squared distances, from +∞), and finishes with the means by host
  operations; the reference computes one array of clamped squared distances and reduces it by minimum along
  either axis.

  Frames: the kernel program, at the word level and idealized, is four segments (host operations, region,
  region, host operations) launched once; each region's body is run symbolically at every point, its scratch
  carried from point to point by the invariant. The reference is host operations only.
  Preservation: the ideal pass rewrote nothing.
  Values, at the extended reals: a minimum is determined by its lower bounds, the lower bounds of a running
  minimum over tiles are those of the minimum over all columns, and the squared distance is symmetric in the
  two clouds; the host operations around the regions are the reference's own. So the three results agree.
  The precondition (finite inputs) is not used: none of these laws needs it.
-/
import proofs.«118349_j11184094838808_1_alg».proof.Defs
import proofs.«118349_j11184094838808_1_alg».proof.Proof.RunK
import proofs.«118349_j11184094838808_1_alg».proof.Proof.KernelValue
import proofs.«118349_j11184094838808_1_alg».proof.Proof.Gen.Kernel
import proofs.«118349_j11184094838808_1_alg».proof.Proof.Gen.KernelIdeal
import proofs.«118349_j11184094838808_1_alg».proof.Proof.Gen.ReferenceIdeal
import proofs.«118349_j11184094838808_1_alg».proof.Proof.Gen.Pre_finite_inputs

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs end with the reference's three stages of the (agreeing) argument arrays. -/
theorem algebraic : Cert.algebraic_KernelIdeal_ReferenceIdeal := by
  intro m ρ m' ρ' _ hagree
  refine ⟨_, _, _, Cert.KernelIdeal.Hand.run_values m ρ, ?_⟩
  refine (θ_run Cert.ReferenceIdeal.defs _ _).mono (fun _ h c => ?_) (Cert.ReferenceIdeal.Value.run (F := Ideal) m' ρ')
  obtain ⟨h35, h6, h32, ha0, ha1, ha2⟩ := h c
  obtain ⟨e0, e1, e2⟩ := hagree c
  refine ⟨h35.trans ?_, h6.trans ?_, h32.trans ?_, ha0, ha1, ha2⟩
  · rw [Cert.ReferenceIdeal.Read.val_main_v35_eq, e0, e1, e2]
  · rw [Cert.ReferenceIdeal.Read.val_main_v6_eq, e2]
  · rw [Cert.ReferenceIdeal.Read.val_main_v32_eq, e0, e1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
